-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x1024 : Shape := ⟨2, ![11008, 1024]⟩
abbrev S4 : Shape := ⟨1, ![4]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S8192x4096 .f32) (main_arg1 : IVec S11008x1024 32) (main_arg2 : FVec F S4 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  main_v8
-- ==== Kernel.lean ====
abbrev S8192x4096 : Shape := ⟨2, ![8192, 4096]⟩
abbrev S11008x1024 : Shape := ⟨2, ![11008, 1024]⟩
abbrev S4 : Shape := ⟨1, ![4]⟩
abbrev S1x4 : Shape := ⟨2, ![1, 4]⟩
abbrev S2752x4 : Shape := ⟨2, ![2752, 4]⟩
abbrev S11008 : Shape := ⟨1, ![11008]⟩
abbrev S1x11008 : Shape := ⟨2, ![1, 11008]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S8192x1024x4 : Shape := ⟨3, ![8192, 1024, 4]⟩
abbrev S8192x4x1024 : Shape := ⟨3, ![8192, 4, 1024]⟩
abbrev S8192x11008 : Shape := ⟨2, ![8192, 11008]⟩
abbrev S2048x1024 : Shape := ⟨2, ![2048, 1024]⟩
abbrev S256x1024 : Shape := ⟨2, ![256, 1024]⟩
abbrev S2048x1 : Shape := ⟨2, ![2048, 1]⟩
abbrev S1x256 : Shape := ⟨2, ![1, 256]⟩
abbrev S2048x256 : Shape := ⟨2, ![2048, 256]⟩

abbrev nBuf : Space → Nat
  | .hbm => 13
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S11008x1024, .i32⟩
  | .hbm, ⟨2, _⟩ => ⟨S4, .f32⟩
  | .hbm, ⟨3, _⟩ => ⟨S1x4, .f32⟩
  | .hbm, ⟨4, _⟩ => ⟨S2752x4, .f32⟩
  | .hbm, ⟨5, _⟩ => ⟨S11008, .f32⟩
  | .hbm, ⟨6, _⟩ => ⟨S1x11008, .f32⟩
  | .hbm, ⟨7, _⟩ => ⟨S8192x4096, .bf16⟩
  | .hbm, ⟨8, _⟩ => ⟨S8192x1, .f32⟩
  | .hbm, ⟨9, _⟩ => ⟨S8192x1024x4, .bf16⟩
  | .hbm, ⟨10, _⟩ => ⟨S8192x4x1024, .bf16⟩
  | .hbm, ⟨11, _⟩ => ⟨S8192x4096, .bf16⟩
  | .hbm, ⟨12, _⟩ => ⟨S8192x11008, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S2048x1024, .bf16⟩
  | .local _ .vmem, ⟨7, _⟩ => ⟨S2048x1024, .bf16⟩
  | .local _ .vmem, ⟨8, _⟩ => ⟨S256x1024, .i32⟩
  | .local _ .vmem, ⟨9, _⟩ => ⟨S256x1024, .i32⟩
  | .local _ .vmem, ⟨10, _⟩ => ⟨S2048x1, .f32⟩
  | .local _ .vmem, ⟨11, _⟩ => ⟨S2048x1, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 43, 4], ![false, false, false]⟩

def k1_cond2 (i : grid1.Coords) : BitVec 1 :=
  let arg2 : BitVec 32 := BitVec.ofNat 32 (i 2).val
  let c3_i32_8 : BitVec 32 := 3#32
  let v20 : BitVec 1 := Scalar.cmpi .eq arg2 c3_i32_8
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4_S1x4 : S4.ShapeCasts S1x4
  bcast_S1x4_S2752x4_0_1 : S1x4.BroadcastsInDim S2752x4 (![0, 1] : Fin 2 → Fin S2752x4.rank)
  shapeCasts_S2752x4_S11008 : S2752x4.ShapeCasts S11008
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S8192x4096_S8192x1024x4 : S8192x4096.ShapeCasts S8192x1024x4
  transposes_S8192x1024x4_S8192x4x1024_0_2_1 : S8192x1024x4.Transposes [0, 2, 1] S8192x4x1024
  shapeCasts_S8192x4x1024_S8192x4096 : S8192x4x1024.ShapeCasts S8192x4096
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S11008x1024.size a
  hwx1_1 : ∀ i : grid1.Coords, EltTy.bits .i32 = 32 ∨ (Rect.block (s := S11008x1024) S256x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x11008.size a
  hwx1_3 : ∀ i : grid1.Coords, EltTy.bits .f32 = 32 ∨ (Rect.block (s := S1x11008) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x11008.size a
  hwx1_4 : ∀ i : grid1.Coords, EltTy.bits .bf16 = 32 ∨ (Rect.block (s := S8192x11008) S2048x256.size (cc1_transform_4 i) (hinb1_4 i)).WholeWords (EltTy.packing .bf16)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x1024 : Shape := ⟨2, ![11008, 1024]⟩
abbrev S4 : Shape := ⟨1, ![4]⟩
abbrev S_ : Shape := ⟨0, ![]⟩
abbrev S8192 : Shape := ⟨1, ![8192]⟩
abbrev S8192x1 : Shape := ⟨2, ![8192, 1]⟩
abbrev S11008x1024x1 : Shape := ⟨3, ![11008, 1024, 1]⟩
abbrev S11008x1024x4 : Shape := ⟨3, ![11008, 1024, 4]⟩
abbrev S11008x4096 : Shape := ⟨2, ![11008, 4096]⟩
abbrev S8192x11008 : Shape := ⟨2, ![8192, 11008]⟩
abbrev S11008 : Shape := ⟨1, ![11008]⟩
abbrev S11008x1 : Shape := ⟨2, ![11008, 1]⟩
abbrev S1x11008 : Shape := ⟨2, ![1, 11008]⟩

abbrev nBuf : Space → Nat
  | .hbm => 98
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x1024, .i32⟩
  | .hbm, ⟨2, _⟩ => ⟨S4, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .i32⟩
  | .hbm, ⟨26, _⟩ => ⟨S11008x1024, .i32⟩
  | .hbm, ⟨27, _⟩ => ⟨S11008x1024, .i32⟩
  | .hbm, ⟨28, _⟩ => ⟨S_, .i32⟩
  | .hbm, ⟨29, _⟩ => ⟨S11008x1024, .i32⟩
  | .hbm, ⟨30, _⟩ => ⟨S11008x1024, .i32⟩
  | .hbm, ⟨31, _⟩ => ⟨S_, .i32⟩
  | .hbm, ⟨32, _⟩ => ⟨S11008x1024, .i32⟩
  | .hbm, ⟨33, _⟩ => ⟨S11008x1024, .i32⟩
  | .hbm, ⟨34, _⟩ => ⟨S_, .i32⟩
  | .hbm, ⟨35, _⟩ => ⟨S11008x1024, .i32⟩
  | .hbm, ⟨36, _⟩ => ⟨S11008x1024, .i32⟩
  | .hbm, ⟨37, _⟩ => ⟨S_, .i32⟩
  | .hbm, ⟨38, _⟩ => ⟨S11008x1024, .i32⟩
  | .hbm, ⟨39, _⟩ => ⟨S11008x1024, .i32⟩
  | .hbm, ⟨40, _⟩ => ⟨S_, .i32⟩
  | .hbm, ⟨41, _⟩ => ⟨S11008x1024, .i32⟩
  | .hbm, ⟨42, _⟩ => ⟨S11008x1024, .i32⟩
  | .hbm, ⟨43, _⟩ => ⟨S_, .i32⟩
  | .hbm, ⟨44, _⟩ => ⟨S11008x1024, .i32⟩
  | .hbm, ⟨45, _⟩ => ⟨S11008x1024, .i32⟩
  | .hbm, ⟨46, _⟩ => ⟨S_, .i32⟩
  | .hbm, ⟨47, _⟩ => ⟨S11008x1024, .i32⟩
  | .hbm, ⟨48, _⟩ => ⟨S11008x1024, .i32⟩
  | .hbm, ⟨49, _⟩ => ⟨S11008x1024x1, .i32⟩
  | .hbm, ⟨50, _⟩ => ⟨S11008x1024x1, .i32⟩
  | .hbm, ⟨51, _⟩ => ⟨S11008x1024x1, .i32⟩
  | .hbm, ⟨52, _⟩ => ⟨S11008x1024x1, .i32⟩
  | .hbm, ⟨53, _⟩ => ⟨S11008x1024x4, .i32⟩
  | .hbm, ⟨54, _⟩ => ⟨S11008x4096, .i32⟩
  | .hbm, ⟨55, _⟩ => ⟨S_, .i32⟩
  | .hbm, ⟨56, _⟩ => ⟨S11008x4096, .i32⟩
  | .hbm, ⟨57, _⟩ => ⟨S11008x4096, .i32⟩
  | .hbm, ⟨58, _⟩ => ⟨S11008x4096, .f32⟩
  | .hbm, ⟨59, _⟩ => ⟨S8192x11008, .f32⟩
  | .hbm, ⟨60, _⟩ => ⟨S11008, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S11008, .i32⟩
  | .hbm, ⟨68, _⟩ => ⟨S11008, .i32⟩
  | .hbm, ⟨69, _⟩ => ⟨S_, .i32⟩
  | .hbm, ⟨70, _⟩ => ⟨S11008, .i32⟩
  | .hbm, ⟨71, _⟩ => ⟨S11008, .i1⟩
  | .hbm, ⟨72, _⟩ => ⟨S_, .i32⟩
  | .hbm, ⟨73, _⟩ => ⟨S11008, .i32⟩
  | .hbm, ⟨74, _⟩ => ⟨S11008, .i1⟩
  | .hbm, ⟨75, _⟩ => ⟨S_, .i32⟩
  | .hbm, ⟨76, _⟩ => ⟨S_, .i1⟩
  | .hbm, ⟨77, _⟩ => ⟨S11008, .i1⟩
  | .hbm, ⟨78, _⟩ => ⟨S11008, .i1⟩
  | .hbm, ⟨79, _⟩ => ⟨S11008, .i1⟩
  | .hbm, ⟨80, _⟩ => ⟨S11008, .i32⟩
  | .hbm, ⟨81, _⟩ => ⟨S11008, .i32⟩
  | .hbm, ⟨82, _⟩ => ⟨S11008, .i32⟩
  | .hbm, ⟨83, _⟩ => ⟨S_, .i32⟩
  | .hbm, ⟨84, _⟩ => ⟨S11008, .i32⟩
  | .hbm, ⟨85, _⟩ => ⟨S11008, .i1⟩
  | .hbm, ⟨86, _⟩ => ⟨S_, .i32⟩
  | .hbm, ⟨87, _⟩ => ⟨S11008, .i32⟩
  | .hbm, ⟨88, _⟩ => ⟨S11008, .i32⟩
  | .hbm, ⟨89, _⟩ => ⟨S11008, .i32⟩
  | .hbm, ⟨90, _⟩ => ⟨S11008x1, .i32⟩
  | .hbm, ⟨91, _⟩ => ⟨S11008, .f32⟩
  | .hbm, ⟨92, _⟩ => ⟨S8192x11008, .f32⟩
  | .hbm, ⟨93, _⟩ => ⟨S8192x11008, .f32⟩
  | .hbm, ⟨94, _⟩ => ⟨S1x11008, .f32⟩
  | .hbm, ⟨95, _⟩ => ⟨S8192x11008, .f32⟩
  | .hbm, ⟨96, _⟩ => ⟨S8192x11008, .f32⟩
  | .hbm, ⟨97, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_c_2 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_v18 : Ref sig .tc := ⟨.hbm, 38, rfl⟩
abbrev main_v19 : Ref sig .tc := ⟨.hbm, 39, rfl⟩
abbrev main_c_8 : Ref sig .tc := ⟨.hbm, 40, rfl⟩
abbrev main_v20 : Ref sig .tc := ⟨.hbm, 41, rfl⟩
abbrev main_v21 : Ref sig .tc := ⟨.hbm, 42, rfl⟩
abbrev main_c_9 : Ref sig .tc := ⟨.hbm, 43, rfl⟩
abbrev main_v22 : Ref sig .tc := ⟨.hbm, 44, rfl⟩
abbrev main_v23 : Ref sig .tc := ⟨.hbm, 45, rfl⟩
abbrev main_c_10 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v37 : Ref sig .tc := ⟨.hbm, 82, rfl⟩
abbrev main_c_13 : Ref sig .tc := ⟨.hbm, 83, rfl⟩
abbrev main_v38 : Ref sig .tc := ⟨.hbm, 84, rfl⟩
abbrev main_v39 : Ref sig .tc := ⟨.hbm, 85, rfl⟩
abbrev main_c_14 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S_S11008x1024 : S_.BroadcastsInDim S11008x1024 (![] : Fin 0 → Fin S11008x1024.rank)
  bcast_S11008x1024_S11008x1024x1_0_1 : S11008x1024.BroadcastsInDim S11008x1024x1 (![0, 1] : Fin 2 → Fin S11008x1024x1.rank)
  concatenates_S11008x1024x1_S11008x1024x1_S11008x1024x1_S11008x1024x1_S11008x1024x4_d2 : Shape.Concatenates [S11008x1024x1, S11008x1024x1, S11008x1024x1, S11008x1024x1] S11008x1024x4 2
  shapeCasts_S11008x1024x4_S11008x4096 : S11008x1024x4.ShapeCasts S11008x4096
  bcast_S_S11008x4096 : S_.BroadcastsInDim S11008x4096 (![] : Fin 0 → Fin S11008x4096.rank)
  bcast_S_S11008 : S_.BroadcastsInDim S11008 (![] : Fin 0 → Fin S11008.rank)
  bcast_S11008_S11008x1_0 : S11008.BroadcastsInDim S11008x1 (![0] : Fin 1 → Fin S11008x1.rank)
  bcast_S8192x1_S8192x11008_0_1 : S8192x1.BroadcastsInDim S8192x11008 (![0, 1] : Fin 2 → Fin S8192x11008.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  bitsLt_bf16_f32 : FTy.bits .bf16 < FTy.bits .f32
  dot_S8192x4096_S11008x4096_S8192x11008_1_1_0_0_n_n_wf : DotDims.WF S8192x4096 S11008x4096 S8192x11008 [1] [1] [0] [0] [] []
  gather_S4_S11008x1_S11008_n_0_n_n_0_1_1_wf : GatherDims.WF S4 S11008x1 S11008 [] [0] [] [0] [] 1 ![1]

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf
def gather_S4_S11008x1_S11008_n_0_n_n_0_1_1 : GatherDims S4 S11008x1 S11008 where
  offsetDims := []
  collapsedSliceDims := [0]
  operandBatchingDims := []
  startIndicesBatchingDims := []
  startIndexMap := [0]
  indexVectorDim := 1
  sliceSizes := ![1]
  wf := gather_S4_S11008x1_S11008_n_0_n_n_0_1_1_wf

class Facts : Prop extends Facts₀ where

variable [Facts]
-- ==== Proof.K.Reg0.lean ====
/-
  Region 0 (the row quantization, a grid of 32 blocks of 256 rows), stated at a parameter V: the contents of the
  TensorCore's buffers when the region is entered.

  At grid point t the pipeline brings block t of the activations (256 rows by 4096 columns) into the input window;
  the body reads it whole and leaves, in the first output window, the quantized block and, in the second, the
  column of the 256 row scales. Both are functions of the input block alone, so after the body each output
  window's buffer is that function of block t of V's activations, whatever the buffer held before.
-/
import proofs.«408621_j59803124630310_3_alg».proof.Proof.Gen.Kernel.Launch
import proofs.«408621_j59803124630310_3_alg».proof.Proof.Gen.Kernel.Skeleton
import proofs.«408621_j59803124630310_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 256 by 4096 entries is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the rows 256 t … 256 t + 255 of the window's array as V has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds block t at every point t, for any proof data whose input array is
    V's and whose body leaves the input block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer, whole -/

abbrev r0_0 : Rect S256x4096 := Rect.unit (s := S256x4096) ![0, 0] S256x4096.size inb_S256x4096_S256x4096_0_0
abbrev r0_1 : Rect S256x1 := Rect.unit (s := S256x1) ![0, 0] S256x1.size inb_S256x1_S256x1_0_0

/-! ## What the body leaves in each output window's buffer -/

/-- The first output window's buffer after the body: the quantized block, from the input block x0. -/
def out0_1 (x0 : Vec F S256x4096 .f32) : Vec F S256x4096 .bf16 :=
  View.canon [⟨r0_0, k0_pay2 (View.ld x0 r0_0)⟩]

/-- The second output window's buffer after the body: the column of row scales, from the input block x0. -/
def out0_2 (x0 : Vec F S256x4096 .f32) : Vec F S256x1 .f32 :=
  View.canon [⟨r0_1, k0_pay1 (View.ld x0 r0_0)⟩]

/-- The one store into the first output buffer is of the whole buffer, so it covers it. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-- The one store into the second output buffer is of the whole buffer, so it covers it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The body on three whole buffers, the input's at contents x0 and the outputs' at anything, runs to the
    continuation with the input's as it was, the first output's at the quantized block of x0 and the second's at
    the scales of x0. The body reads each output buffer before it stores into it; what it read is not used. -/
theorem sound_kernel0 (c : Dev nD) (E : Set ℕ) (i : grid0.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0_quantize_kernel i arg1 harg1 arg2 harg2 arg3 harg3) K := by
  simp only [cc0_quantize_kernel_eq_skeleton]; unfold cc0_quantize_kernel_skel
  unfold owns
  iintro ⟨⟨%f1, %hf1, H1⟩, ⟨%d2, %f2, -, H2⟩, ⟨%d3, %f3, -, H3⟩, Hk⟩
  subst hf1
  sl_exec
  sl_step
  iapply Hk
  isplitl [H1]
  · iexists f1; isplitr; · ipureintro; rfl
    iexact H1
  isplitl [H2]
  · iexists _; isplitr
    swap; · iexact H2
    ipureintro
    exact View.read_writes_eq_canon _ _ _ (cover0_1 _)
  iexists _; isplitr
  swap; · iexact H3
  ipureintro
  exact View.read_writes_eq_canon _ _ _ (cover0_2 _)

/-! ## The pipeline's proof data -/

/-- The proof data of the region on core c: the arrays as V has them; after the body at point t the input's
    buffer at block t, the outputs' at the quantized block and the scales of block t; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are V's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current buffer holds block t at every point t. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds block t, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
import proofs.«408621_j59803124630310_3_alg».proof.Proof.Gen.Kernel.Launch
import proofs.«408621_j59803124630310_3_alg».proof.Proof.Gen.Kernel.Skeleton
import proofs.«408621_j59803124630310_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1 (the matrix product, grid (i, j, k) with k fastest): what its three control cases share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved since the point that fetched it), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved since the point that fetched it), for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved since the point that fetched it), for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its
    block index has not moved since the point that fetched it), for any proof data whose array is `V`'s and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: k = 0, as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4): k is the fastest axis, of extent 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The four inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Case A (k = 0): the output is idle, nothing is stored into it, -/
theorem idleAt1_4_A : ∀ t : Fin cfg1.N, cond1_0 (grid1.coords t) → ¬cond1_1 (grid1.coords t) → cfg1.idle 4 (grid1.coords t) = true := by decide +kernel
/-- and its block is not written back. -/
theorem noFlush1_4_A : ∀ t : Fin cfg1.N, cond1_0 (grid1.coords t) → ¬cond1_1 (grid1.coords t) → (cfg1.win 4).flush t = false := by decide +kernel
/-- Case B (k = 1, 2): the same. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Case C (k = 3): the output is live, the body stores its block. -/
theorem liveAt1_4_C : ∀ t : Fin cfg1.N, ¬cond1_0 (grid1.coords t) → cond1_1 (grid1.coords t) → cfg1.idle 4 (grid1.coords t) = false := by decide +kernel

/-! ## The memrefs the body is called on -/

/-- One staging buffer of the output window, through which its contents are stated (the choice does not matter: a
    covering list of pieces reads back the same through any whole view). -/
abbrev VO1_4 : View sig .tc .vmem S2048x256 .bf16 := (Memref.whole cc1_stg4_0 : Memref sig .tc .vmem S2048x256 .bf16).view
/-- Each window's current staging memref at point `t`, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .bf16 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S2048x256 .f32 := Memref.whole cc1_scratch0
/-- The same as a view: what it holds is stated through it. -/
abbrev VS1_0 : View sig .tc .vmem S2048x256 .f32 := scM1_0.view

/-! ## The region invariant with the accumulator singled out -/

/-- A scoped buffer whole at some contents. -/
abbrev anyAt1 (c : Dev nD) (b : Ref sig .tc) : sProp 𝕄 :=
  iprop(∃ f : Buf (Elt F) ((c : Thread nD τ).loc b), ((c : Thread nD τ).loc b) ↦{fullShare} f)

/-- The core's scoped buffers that are no staging buffer of region 1 — the six staging buffers of region 0, each at some
    contents, which region 1's body never touches — with `S` in the accumulator's place. -/
abbrev rest1With (c : Dev nD) (S : sProp 𝕄) : sProp 𝕄 :=
  iprop(anyAt1 (F := F) c cc0_stg0_0 ∗ anyAt1 (F := F) c cc0_stg0_1 ∗ anyAt1 (F := F) c cc0_stg1_0 ∗ anyAt1 (F := F) c cc0_stg1_1
    ∗ anyAt1 (F := F) c cc0_stg2_0 ∗ anyAt1 (F := F) c cc0_stg2_1 ∗ S)

/-- The class's invariant with the accumulator as a memref owned at some contents: what the body obligation hands the
    body before the first point and takes back after the last. -/
theorem PhiA1_eq (c : Dev nD) :
    (Pipeline.ΦA spec1 c : sProp 𝕄)
      = iprop(rest1With (F := F) c iprop(∃ d, owns (c : Thread nD τ) scM1_0 fullShare d) ∗ (∃ r, prngReg c r)) := by
  unfold Pipeline.ΦA; rw [scopedRest1_eq]; simp only [scM1_0, owns_whole]; try rfl

end Cert.Kernel.Hand

end
-- ==== Proof.K.Reg1RunA.lean ====
import proofs.«408621_j59803124630310_3_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE A, k = 0 (the first conditional taken, the second not). On whole memrefs — the four inputs' at their contents,
    the output's at contents `xi4` handed back untouched (nothing is stored into it), the accumulator's at anything — the
    body runs to the continuation holding the inputs' and the output's as they were and the accumulator with its pieces
    written: first the zero block, then the zero block plus the product of the (i, k) block of the left operand with the
    k-th code plane of the weight block. The pieces (last first) are the witness the run finds. -/
noncomputable def kernelRun1_A (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) :
    Σ' (L4 : List (View.Piece (Elt F) S2048x256 .bf16)), { LS0 : List (View.Piece (Elt F) S2048x256 .f32) //
      ∀ (xi4 : Vec F S2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨[], ?_, fun xi4 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.Reg1RunB.lean ====
import proofs.«408621_j59803124630310_3_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE B, k = 1, 2 (neither conditional taken). As case A, but the accumulator is entered at the contents `xs0` the point
    before left, and the one piece written is `xs0` plus the product of the (i, k) block of the left operand with the
    k-th code plane of the weight block. -/
noncomputable def kernelRun1_B (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) :
    Σ' (L4 : List (View.Piece (Elt F) S2048x256 .bf16)), { LS0 : List (View.Piece (Elt F) S2048x256 .f32) //
      ∀ (xi4 : Vec F S2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨[], ?_, fun xi4 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.Reg1RunC.lean ====
import proofs.«408621_j59803124630310_3_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE C, k = 3 (the second conditional taken). The accumulator is entered at `xs0` and gets `xs0` plus the k-th product;
    the output's memref, at anything, is then stored whole: the accumulator divided by the row scales and multiplied by the
    column scales, narrowed to the output's format. -/
noncomputable def kernelRun1_C (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) :
    Σ' (L4 : List (View.Piece (Elt F) S2048x256 .bf16)), { LS0 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.Reg1.lean ====
import proofs.«408621_j59803124630310_3_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1: what the output and the accumulator hold per case and point by point, the proof data, the body obligation -/

/-- Case A (k = 0) stores nothing into the output: no pieces. A placeholder nothing consults, since at these points the
    window is neither written back nor read at the next point. -/
def out1_A_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) : Vec F S2048x256 .bf16 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A (k = 0)'s pieces for the accumulator cover it (each store is of the whole block). -/
theorem scover1_A_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) (y : S2048x256.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S2048x256.size (by sl_kernel_rfl) y

/-- What case A (k = 0) leaves in the accumulator: its pieces read back. -/
def sout1_A_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) : Vec F S2048x256 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B (k = 1, 2) stores nothing into the output: no pieces. A placeholder nothing consults, since at these points the
    window is neither written back nor read at the next point. -/
def out1_B_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) : Vec F S2048x256 .bf16 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B (k = 1, 2)'s pieces for the accumulator cover it (each store is of the whole block). -/
theorem scover1_B_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S2048x256.size (by sl_kernel_rfl) y

/-- What case B (k = 1, 2) leaves in the accumulator: its pieces read back. -/
def sout1_B_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) : Vec F S2048x256 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C (k = 3)'s one store into the output covers its block. -/
theorem cover1_C_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S2048x256.size (by sl_kernel_rfl) y

/-- What case C (k = 3) leaves in the output's staging buffer: its pieces read back. -/
def out1_C_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) : Vec F S2048x256 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C (k = 3)'s pieces for the accumulator cover it (each store is of the whole block). -/
theorem scover1_C_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S2048x256.size (by sl_kernel_rfl) y

/-- What case C (k = 3) leaves in the accumulator: its pieces read back. -/
def sout1_C_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) : Vec F S2048x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the output's buffer and the accumulator hold after each point -/

/-- THE ACCUMULATION. After the body at position `n` (k = n mod 4): the output's staging buffer and the accumulator, by the
    case k selects, run at the point's memrefs and input blocks; for k ≠ 0 the accumulator is entered at what position
    `n - 1` left in it. -/
def outsAt1 (c : Dev nD) : (n : ℕ) → n < cfg1.N → Vec F S2048x256 .bf16 × Vec F S2048x256 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a point with k = 0: case A's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a point with k = 1, 2: case B's contents, over what the point before left in the accumulator. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: case C's contents, over what the point before left in the accumulator. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (the accumulator at anything); afterwards the scoped
    rest with the accumulator at what the point before left, and the generator register at some state. -/
def PhiS1 (c : Dev nD) : (n : ℕ) → n ≤ cfg1.N → sProp 𝕄
  | 0, _ => Pipeline.ΦA spec1 c
  | n + 1, hn => iprop(rest1With (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1With (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1With (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; k = t mod 4 says which case the point is in; the invariant hands
    the body the accumulator at what the point before left (at anything at the first point) and takes it back at this point's
    contents, the pieces the case writes covering it; at k ≠ 3 the output's buffer is handed back as found, at k = 3 at its
    covering store read back; the six buffers of region 0, the generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 688 := lt_of_lt_of_eq t.isLt (show cfg1.N = 688 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  dsimp only [rest1With]
  iintro ⟨⟨Ha0, Ha1, Ha2, Ha3, Ha4, Ha5, HS0⟩, Hg⟩
  isplitl [Ha0 Ha1 Ha2 Ha3 Ha4 Ha5 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 688 := N_1; omega)

end Cert.Kernel.Hand

end
-- ==== Proof.K.Run.lean ====
/-
  The run of the kernel's program: @main as four segments — the host lines that lay the weight scales out as a
  row, the quantizing region, the host lines that regroup the quantized columns plane by plane, the matmul region —
  launched from any memory with zero counters. Between two segments every unscoped buffer is held at a named
  valuation: the launch contents, then the host lines' fold over them, then each region's arrays at what its
  write-backs leave. The run ends with every unscoped buffer at the last valuation, from which the frame (the three
  argument arrays as launched) and the result array's contents are read.
-/
import proofs.«408621_j59803124630310_3_alg».proof.Proof.K.Reg0
import proofs.«408621_j59803124630310_3_alg».proof.Proof.K.Reg1
import proofs.«408621_j59803124630310_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host lines (the weight scales laid out as a row of 11008). -/
abbrev W1 : Dev nD → Valuation τ sig (Elt F) := fun c => StableHlo.after hostOps0 (W0 m ρ c)
/-- The same read at the TensorCore's references: what the quantizing region is entered with. -/
abbrev V1 : (c : Dev nD) → (b : Ref sig .tc) → Buf (Elt F) ((c : Thread nD τ).loc b) := fun c b => W1 m ρ c b
/-- After the quantizing region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host lines (the quantized columns regrouped plane by plane). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the matmul region: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host line writes passes a host stretch unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

/-- The activations: the quantizing region's input window (left as entered), bypassing everything else. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- The packed weights: the matmul region's second input window (left as entered). -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The weight scales: read by the first host line only. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The result array ends at what the matmul region's write-backs leave in its output window's array. -/
theorem W4_main_v8 (c : Dev nD) : W4 m ρ c (Proc.devRef .tc main_v8) = (dat1 (V3 m ρ) c).arrAt 4 cfg1.N :=
  W4_arr m ρ c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The quantizing region over the thread state: entered with every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the matmul region — the generator register and the scoped buffers no window of it stages, the
    accumulator among them — is the region's invariant at either end, -/
theorem enterA1 (c : Dev nD) :
    (iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c) : sProp 𝕄)
      ⊢ Pipeline.ΦA spec1 c := by
  unfold Pipeline.ΦA
  iintro ⟨Hp, -, Hr⟩
  isplitl [Hr]; · iexact Hr
  iexact Hp

/-- and that gives the same back. -/
theorem leaveA1 (c : Dev nD) :
    (Pipeline.ΦA spec1 c : sProp 𝕄)
      ⊢ iprop((∃ r, prngReg c r) ∗ (BI.emp : sProp 𝕄)
        ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The matmul region over the thread state: entered with every unscoped buffer at `W3`, left at `W4`. Its invariant carries
    the accumulator between grid points; at the region's two ends it is the scoped rest at any contents beside the generator
    register, so the region is entered and left exactly as the quantizing one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enterA1 c).trans (hin1 (V3 m ρ) c)
  hout c := by
    rw [Pipeline.ownSems0_none]
    exact (hout1 (V3 m ρ) c).trans (leaveA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME AND THE RESULT: the run ends with the three argument arrays as launched and the result array at what the
    matmul region's write-backs leave. -/
theorem run_main : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v8 (by decide))).trans (W4_main_v8 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Reg0.lean ====
/-
  Region 0 (the row quantization, a grid of 32 blocks of 256 rows), stated at a parameter V: the contents of the
  TensorCore's buffers when the region is entered.

  At grid point t the pipeline brings block t of the activations (256 rows by 4096 columns) into the input window;
  the body reads it whole and leaves, in the first output window, the quantized block and, in the second, the
  column of the 256 row scales. Both are functions of the input block alone, so after the body each output
  window's buffer is that function of block t of V's activations, whatever the buffer held before.
-/
import proofs.«408621_j59803124630310_3_alg».proof.Proof.Gen.KernelIdeal.Launch
import proofs.«408621_j59803124630310_3_alg».proof.Proof.Gen.KernelIdeal.Skeleton
import proofs.«408621_j59803124630310_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 256 by 4096 entries is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the rows 256 t … 256 t + 255 of the window's array as V has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds block t at every point t, for any proof data whose input array is
    V's and whose body leaves the input block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer, whole -/

abbrev r0_0 : Rect S256x4096 := Rect.unit (s := S256x4096) ![0, 0] S256x4096.size inb_S256x4096_S256x4096_0_0
abbrev r0_1 : Rect S256x1 := Rect.unit (s := S256x1) ![0, 0] S256x1.size inb_S256x1_S256x1_0_0

/-! ## What the body leaves in each output window's buffer -/

/-- The first output window's buffer after the body: the quantized block, from the input block x0. -/
def out0_1 (x0 : Vec F S256x4096 .f32) : Vec F S256x4096 .bf16 :=
  View.canon [⟨r0_0, k0_pay2 (View.ld x0 r0_0)⟩]

/-- The second output window's buffer after the body: the column of row scales, from the input block x0. -/
def out0_2 (x0 : Vec F S256x4096 .f32) : Vec F S256x1 .f32 :=
  View.canon [⟨r0_1, k0_pay1 (View.ld x0 r0_0)⟩]

/-- The one store into the first output buffer is of the whole buffer, so it covers it. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-- The one store into the second output buffer is of the whole buffer, so it covers it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The body on three whole buffers, the input's at contents x0 and the outputs' at anything, runs to the
    continuation with the input's as it was, the first output's at the quantized block of x0 and the second's at
    the scales of x0. The body reads each output buffer before it stores into it; what it read is not used. -/
theorem sound_kernel0 (c : Dev nD) (E : Set ℕ) (i : grid0.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0_quantize_kernel i arg1 harg1 arg2 harg2 arg3 harg3) K := by
  simp only [cc0_quantize_kernel_eq_skeleton]; unfold cc0_quantize_kernel_skel
  unfold owns
  iintro ⟨⟨%f1, %hf1, H1⟩, ⟨%d2, %f2, -, H2⟩, ⟨%d3, %f3, -, H3⟩, Hk⟩
  subst hf1
  sl_exec
  sl_step
  iapply Hk
  isplitl [H1]
  · iexists f1; isplitr; · ipureintro; rfl
    iexact H1
  isplitl [H2]
  · iexists _; isplitr
    swap; · iexact H2
    ipureintro
    exact View.read_writes_eq_canon _ _ _ (cover0_1 _)
  iexists _; isplitr
  swap; · iexact H3
  ipureintro
  exact View.read_writes_eq_canon _ _ _ (cover0_2 _)

/-! ## The pipeline's proof data -/

/-- The proof data of the region on core c: the arrays as V has them; after the body at point t the input's
    buffer at block t, the outputs' at the quantized block and the scales of block t; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are V's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current buffer holds block t at every point t. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds block t, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
import proofs.«408621_j59803124630310_3_alg».proof.Proof.Gen.KernelIdeal.Launch
import proofs.«408621_j59803124630310_3_alg».proof.Proof.Gen.KernelIdeal.Skeleton
import proofs.«408621_j59803124630310_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1 (the matrix product, grid (i, j, k) with k fastest): what its three control cases share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved since the point that fetched it), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved since the point that fetched it), for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved since the point that fetched it), for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its
    block index has not moved since the point that fetched it), for any proof data whose array is `V`'s and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: k = 0, as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4): k is the fastest axis, of extent 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The four inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Case A (k = 0): the output is idle, nothing is stored into it, -/
theorem idleAt1_4_A : ∀ t : Fin cfg1.N, cond1_0 (grid1.coords t) → ¬cond1_1 (grid1.coords t) → cfg1.idle 4 (grid1.coords t) = true := by decide +kernel
/-- and its block is not written back. -/
theorem noFlush1_4_A : ∀ t : Fin cfg1.N, cond1_0 (grid1.coords t) → ¬cond1_1 (grid1.coords t) → (cfg1.win 4).flush t = false := by decide +kernel
/-- Case B (k = 1, 2): the same. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Case C (k = 3): the output is live, the body stores its block. -/
theorem liveAt1_4_C : ∀ t : Fin cfg1.N, ¬cond1_0 (grid1.coords t) → cond1_1 (grid1.coords t) → cfg1.idle 4 (grid1.coords t) = false := by decide +kernel

/-! ## The memrefs the body is called on -/

/-- One staging buffer of the output window, through which its contents are stated (the choice does not matter: a
    covering list of pieces reads back the same through any whole view). -/
abbrev VO1_4 : View sig .tc .vmem S2048x256 .bf16 := (Memref.whole cc1_stg4_0 : Memref sig .tc .vmem S2048x256 .bf16).view
/-- Each window's current staging memref at point `t`, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .bf16 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S2048x256 .f32 := Memref.whole cc1_scratch0
/-- The same as a view: what it holds is stated through it. -/
abbrev VS1_0 : View sig .tc .vmem S2048x256 .f32 := scM1_0.view

/-! ## The region invariant with the accumulator singled out -/

/-- A scoped buffer whole at some contents. -/
abbrev anyAt1 (c : Dev nD) (b : Ref sig .tc) : sProp 𝕄 :=
  iprop(∃ f : Buf (Elt F) ((c : Thread nD τ).loc b), ((c : Thread nD τ).loc b) ↦{fullShare} f)

/-- The core's scoped buffers that are no staging buffer of region 1 — the six staging buffers of region 0, each at some
    contents, which region 1's body never touches — with `S` in the accumulator's place. -/
abbrev rest1With (c : Dev nD) (S : sProp 𝕄) : sProp 𝕄 :=
  iprop(anyAt1 (F := F) c cc0_stg0_0 ∗ anyAt1 (F := F) c cc0_stg0_1 ∗ anyAt1 (F := F) c cc0_stg1_0 ∗ anyAt1 (F := F) c cc0_stg1_1
    ∗ anyAt1 (F := F) c cc0_stg2_0 ∗ anyAt1 (F := F) c cc0_stg2_1 ∗ S)

/-- The class's invariant with the accumulator as a memref owned at some contents: what the body obligation hands the
    body before the first point and takes back after the last. -/
theorem PhiA1_eq (c : Dev nD) :
    (Pipeline.ΦA spec1 c : sProp 𝕄)
      = iprop(rest1With (F := F) c iprop(∃ d, owns (c : Thread nD τ) scM1_0 fullShare d) ∗ (∃ r, prngReg c r)) := by
  unfold Pipeline.ΦA; rw [scopedRest1_eq]; simp only [scM1_0, owns_whole]; try rfl

end Cert.KernelIdeal.Hand

end
-- ==== Proof.KI.Reg1RunA.lean ====
import proofs.«408621_j59803124630310_3_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE A, k = 0 (the first conditional taken, the second not). On whole memrefs — the four inputs' at their contents,
    the output's at contents `xi4` handed back untouched (nothing is stored into it), the accumulator's at anything — the
    body runs to the continuation holding the inputs' and the output's as they were and the accumulator with its pieces
    written: first the zero block, then the zero block plus the product of the (i, k) block of the left operand with the
    k-th code plane of the weight block. The pieces (last first) are the witness the run finds. -/
noncomputable def kernelRun1_A (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) :
    Σ' (L4 : List (View.Piece (Elt F) S2048x256 .bf16)), { LS0 : List (View.Piece (Elt F) S2048x256 .f32) //
      ∀ (xi4 : Vec F S2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨[], ?_, fun xi4 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.Reg1RunB.lean ====
import proofs.«408621_j59803124630310_3_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE B, k = 1, 2 (neither conditional taken). As case A, but the accumulator is entered at the contents `xs0` the point
    before left, and the one piece written is `xs0` plus the product of the (i, k) block of the left operand with the
    k-th code plane of the weight block. -/
noncomputable def kernelRun1_B (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) :
    Σ' (L4 : List (View.Piece (Elt F) S2048x256 .bf16)), { LS0 : List (View.Piece (Elt F) S2048x256 .f32) //
      ∀ (xi4 : Vec F S2048x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨[], ?_, fun xi4 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.Reg1RunC.lean ====
import proofs.«408621_j59803124630310_3_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

set_option maxHeartbeats 1000000 in
/-- CASE C, k = 3 (the second conditional taken). The accumulator is entered at `xs0` and gets `xs0` plus the k-th product;
    the output's memref, at anything, is then stored whole: the accumulator divided by the row scales and multiplied by the
    column scales, narrowed to the output's format. -/
noncomputable def kernelRun1_C (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) :
    Σ' (L4 : List (View.Piece (Elt F) S2048x256 .bf16)), { LS0 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_matmul_kernel i arg3 harg3 arg4 harg4 arg5 harg5 arg6 harg6 arg7 harg7 arg8 harg8) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.Reg1.lean ====
import proofs.«408621_j59803124630310_3_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # Region 1: what the output and the accumulator hold per case and point by point, the proof data, the body obligation -/

/-- Case A (k = 0) stores nothing into the output: no pieces. A placeholder nothing consults, since at these points the
    window is neither written back nor read at the next point. -/
def out1_A_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) : Vec F S2048x256 .bf16 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A (k = 0)'s pieces for the accumulator cover it (each store is of the whole block). -/
theorem scover1_A_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) (y : S2048x256.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S2048x256.size (by sl_kernel_rfl) y

/-- What case A (k = 0) leaves in the accumulator: its pieces read back. -/
def sout1_A_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i)
    (x0 : Vec F S2048x1024 .bf16) (x1 : Vec F S256x1024 .i32) (x2 : Vec F S2048x1 .f32) (x3 : Vec F S1x256 .f32) : Vec F S2048x256 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B (k = 1, 2) stores nothing into the output: no pieces. A placeholder nothing consults, since at these points the
    window is neither written back nor read at the next point. -/
def out1_B_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) : Vec F S2048x256 .bf16 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B (k = 1, 2)'s pieces for the accumulator cover it (each store is of the whole block). -/
theorem scover1_B_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S2048x256.size (by sl_kernel_rfl) y

/-- What case B (k = 1, 2) leaves in the accumulator: its pieces read back. -/
def sout1_B_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i)
    (x0 : Vec F S2048x1024 .bf16) (x1 : Vec F S256x1024 .i32) (x2 : Vec F S2048x1 .f32) (x3 : Vec F S1x256 .f32) (xs0 : Vec F S2048x256 .f32) : Vec F S2048x256 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C (k = 3)'s one store into the output covers its block. -/
theorem cover1_C_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S2048x256.size (by sl_kernel_rfl) y

/-- What case C (k = 3) leaves in the output's staging buffer: its pieces read back. -/
def out1_C_4 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) : Vec F S2048x256 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C (k = 3)'s pieces for the accumulator cover it (each store is of the whole block). -/
theorem scover1_C_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S2048x256.size (by sl_kernel_rfl) y

/-- What case C (k = 3) leaves in the accumulator: its pieces read back. -/
def sout1_C_0 (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i)
    (x0 : Vec F S2048x1024 .bf16) (x1 : Vec F S256x1024 .i32) (x2 : Vec F S2048x1 .f32) (x3 : Vec F S1x256 .f32) (xs0 : Vec F S2048x256 .f32) : Vec F S2048x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the output's buffer and the accumulator hold after each point -/

/-- THE ACCUMULATION. After the body at position `n` (k = n mod 4): the output's staging buffer and the accumulator, by the
    case k selects, run at the point's memrefs and input blocks; for k ≠ 0 the accumulator is entered at what position
    `n - 1` left in it. -/
def outsAt1 (c : Dev nD) : (n : ℕ) → n < cfg1.N → Vec F S2048x256 .bf16 × Vec F S2048x256 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a point with k = 0: case A's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a point with k = 1, 2: case B's contents, over what the point before left in the accumulator. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: case C's contents, over what the point before left in the accumulator. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (the accumulator at anything); afterwards the scoped
    rest with the accumulator at what the point before left, and the generator register at some state. -/
def PhiS1 (c : Dev nD) : (n : ℕ) → n ≤ cfg1.N → sProp 𝕄
  | 0, _ => Pipeline.ΦA spec1 c
  | n + 1, hn => iprop(rest1With (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1With (F := F) c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1With (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; k = t mod 4 says which case the point is in; the invariant hands
    the body the accumulator at what the point before left (at anything at the first point) and takes it back at this point's
    contents, the pieces the case writes covering it; at k ≠ 3 the output's buffer is handed back as found, at k = 3 at its
    covering store read back; the six buffers of region 0, the generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 688 := lt_of_lt_of_eq t.isLt (show cfg1.N = 688 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        dsimp only [rest1With]
        iintro ⟨⟨⟨Ha0, Ha1, Ha2, Ha3, Ha4, Ha5, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha0 Ha1 Ha2 Ha3 Ha4 Ha5 HS0 Hg]
        · isplitl [Ha0 Ha1 Ha2 Ha3 Ha4 Ha5 HS0]
          · isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  dsimp only [rest1With]
  iintro ⟨⟨Ha0, Ha1, Ha2, Ha3, Ha4, Ha5, HS0⟩, Hg⟩
  isplitl [Ha0 Ha1 Ha2 Ha3 Ha4 Ha5 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 688 := N_1; omega)

end Cert.KernelIdeal.Hand

end
-- ==== Proof.KI.Run.lean ====
/-
  The run of the kernel's program: @main as four segments — the host lines that lay the weight scales out as a
  row, the quantizing region, the host lines that regroup the quantized columns plane by plane, the matmul region —
  launched from any memory with zero counters. Between two segments every unscoped buffer is held at a named
  valuation: the launch contents, then the host lines' fold over them, then each region's arrays at what its
  write-backs leave. The run ends with every unscoped buffer at the last valuation, from which the frame (the three
  argument arrays as launched) and the result array's contents are read.
-/
import proofs.«408621_j59803124630310_3_alg».proof.Proof.KI.Reg0
import proofs.«408621_j59803124630310_3_alg».proof.Proof.KI.Reg1
import proofs.«408621_j59803124630310_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host lines (the weight scales laid out as a row of 11008). -/
abbrev W1 : Dev nD → Valuation τ sig (Elt F) := fun c => StableHlo.after hostOps0 (W0 m ρ c)
/-- The same read at the TensorCore's references: what the quantizing region is entered with. -/
abbrev V1 : (c : Dev nD) → (b : Ref sig .tc) → Buf (Elt F) ((c : Thread nD τ).loc b) := fun c b => W1 m ρ c b
/-- After the quantizing region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host lines (the quantized columns regrouped plane by plane). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the matmul region: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no host line writes passes a host stretch unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

/-- The activations: the quantizing region's input window (left as entered), bypassing everything else. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- The packed weights: the matmul region's second input window (left as entered). -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The weight scales: read by the first host line only. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The result array ends at what the matmul region's write-backs leave in its output window's array. -/
theorem W4_main_v8 (c : Dev nD) : W4 m ρ c (Proc.devRef .tc main_v8) = (dat1 (V3 m ρ) c).arrAt 4 cfg1.N :=
  W4_arr m ρ c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The quantizing region over the thread state: entered with every unscoped buffer at `W1`, left at `W2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the matmul region — the generator register and the scoped buffers no window of it stages, the
    accumulator among them — is the region's invariant at either end, -/
theorem enterA1 (c : Dev nD) :
    (iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c) : sProp 𝕄)
      ⊢ Pipeline.ΦA spec1 c := by
  unfold Pipeline.ΦA
  iintro ⟨Hp, -, Hr⟩
  isplitl [Hr]; · iexact Hr
  iexact Hp

/-- and that gives the same back. -/
theorem leaveA1 (c : Dev nD) :
    (Pipeline.ΦA spec1 c : sProp 𝕄)
      ⊢ iprop((∃ r, prngReg c r) ∗ (BI.emp : sProp 𝕄)
        ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The matmul region over the thread state: entered with every unscoped buffer at `W3`, left at `W4`. Its invariant carries
    the accumulator between grid points; at the region's two ends it is the scoped rest at any contents beside the generator
    register, so the region is entered and left exactly as the quantizing one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enterA1 c).trans (hin1 (V3 m ρ) c)
  hout c := by
    rw [Pipeline.ownSems0_none]
    exact (hout1 (V3 m ρ) c).trans (leaveA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME AND THE RESULT: the run ends with the three argument arrays as launched and the result array at what the
    matmul region's write-backs leave. -/
theorem run_main : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v8 (by decide))).trans (W4_main_v8 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  The common value of both programs, index by index, over the extended reals.

  For a row `a` of the activations `x : [8192, 4096]`:
    rowmax x a   = the maximum over the row of |x a k|, folded from -∞;
    scale x a    = 127 / max (rowmax x a) ε,  ε the f32 nearest 1e-5;
    quant x a j  = clamp (round-half-even (x a j · scale x a)) to [-128, 127].
  For the packed weights `w : [11008, 1024]` of 32-bit words, word `p` of row `n` carries four two-bit
  codes; code `k` of it is ((w n p >> 2k) & 3) - 1, read as a signed integer.
  The product row a, column n is the sum over the 4096 columns j = 4p + k of quant x a j · code w n p k,
  and the result divides it by the row's scale and multiplies by the column's weight scale ws (n mod 4).
-/
import Idealize.ShloMosaic.PureOps.Ideal
import Idealize.ShloMosaic.Lib.ValueIdx

noncomputable section

open scoped BigOperators

namespace Cert.Spec

open Idealize.ShloMosaic Idealize.ShloMosaic.ValueIdx

/-- The activations' shape, the packed weights', the weight scales' and the result's. -/
abbrev SX : Shape := ⟨2, ![8192, 4096]⟩
abbrev SW : Shape := ⟨2, ![11008, 1024]⟩
abbrev SWS : Shape := ⟨1, ![4]⟩
abbrev SO : Shape := ⟨2, ![8192, 11008]⟩

/-- The largest absolute value of row `a`, as the fold of `max` from -∞ over the row's 4096 columns. -/
def rowmax (x : SX.Idx → EReal) (a : Fin 8192) : EReal :=
  (Finset.univ : Finset (Fin 4096)).fold max (Ideal.ofBits .f32 0xFF800000#32)
    (fun k => max (x (ix2 a k)) (-(x (ix2 a k))))

/-- The row's quantization scale: 127 over the row maximum, the maximum kept above ε. -/
def scale (x : SX.Idx → EReal) (a : Fin 8192) : EReal :=
  Ideal.div (Ideal.ofBits .f32 0x42FE0000#32) (max (rowmax x a) (Ideal.ofBits .f32 0x3727C5AC#32))

/-- The quantized activation: the scaled entry rounded half to even, clamped to [-128, 127]. -/
def quant (x : SX.Idx → EReal) (a : Fin 8192) (j : Fin 4096) : EReal :=
  min (max (Ideal.liftRound Ideal.roundHalfEven (x (ix2 a j) * scale x a)) ((-128 : ℝ) : EReal)) ((127 : ℝ) : EReal)

/-- Code `k` of word `p` of weight row `n`: two bits at offset 2k, less one, as a signed integer. -/
def code (w : SW.Idx → BitVec 32) (n : Fin 11008) (p : Fin 1024) (k : Fin 4) : EReal :=
  (((((w (ix2 n p)).sshiftRight' (BitVec.ofNat 32 (2 * k.val))) &&& 3#32) - 1#32).toInt : ℝ)

/-- Column j = 4p + k of the unpacked weight row n. -/
def wcol (w : SW.Idx → BitVec 32) (n : Fin 11008) (j : Fin 4096) : EReal :=
  code w n ⟨j.val / 4, by have := j.isLt; omega⟩ ⟨j.val % 4, Nat.mod_lt _ (by decide)⟩

/-- The integer product, row a by column n: the sum over all 4096 columns. -/
def acc (x : SX.Idx → EReal) (w : SW.Idx → BitVec 32) (a : Fin 8192) (n : Fin 11008) : EReal :=
  ∑ j : Fin 4096, quant x a j * wcol w n j

/-- Bit plane k's share of that sum: the 1024 columns j = 4p + k. -/
def plane (x : SX.Idx → EReal) (w : SW.Idx → BitVec 32) (a : Fin 8192) (n : Fin 11008) (k : Fin 4) : EReal :=
  ∑ p : Fin 1024, quant x a ⟨4 * p.val + k.val, by have := p.isLt; have := k.isLt; omega⟩ * code w n p k

/-- The result at (a, n): the product over the row's scale, times the column's weight scale. -/
def out (x : SX.Idx → EReal) (w : SW.Idx → BitVec 32) (ws : SWS.Idx → EReal) (a : Fin 8192) (n : Fin 11008) : EReal :=
  Ideal.div (acc x w a n) (scale x a) * ws (ix1 ⟨n.val % 4, Nat.mod_lt _ (by decide)⟩)

/-- The result as an array. -/
def outArr (x : SX.Idx → EReal) (w : SW.Idx → BitVec 32) (ws : SWS.Idx → EReal) : SO.Idx → EReal :=
  fun i => out x w ws (i 0) (i 1)

/-! ## The matmul stage by itself

What the second kernel computes from the arrays it is handed, whatever they hold: `q` the activations regrouped plane by
plane (plane k's 1024 columns are columns k·1024 … k·1024 + 1023), `s` a column of row scales, `r` a row of column scales. -/

/-- The row-scale column's and the column-scale row's shapes. -/
abbrev SS : Shape := ⟨2, ![8192, 1]⟩
abbrev SR : Shape := ⟨2, ![1, 11008]⟩

/-- Plane k's partial product, row a by column n, over the regrouped activations. -/
def mmPlane (q : SX.Idx → EReal) (w : SW.Idx → BitVec 32) (a : Fin 8192) (n : Fin 11008) (k : Fin 4) : EReal :=
  ∑ p : Fin 1024, q (ix2 a ⟨k.val * 1024 + p.val, by have := p.isLt; have := k.isLt; omega⟩) * code w n p k

/-- The stage's result at (a, n): the four planes added in order from zero, over the row's scale, times the column's. -/
def mmOut (q : SX.Idx → EReal) (w : SW.Idx → BitVec 32) (s : SS.Idx → EReal) (r : SR.Idx → EReal) (a : Fin 8192) (n : Fin 11008) : EReal :=
  Ideal.div ((((0 + mmPlane q w a n 0) + mmPlane q w a n 1) + mmPlane q w a n 2) + mmPlane q w a n 3) (s (ix2 a (0 : Fin 1)))
    * r (ix2 (0 : Fin 1) n)

end Cert.Spec

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Algebra.lean ====
/-
  Two facts of plain algebra about the common value.

  The product row a, column n is a sum over the 4096 columns of the unpacked weights. Column j is
  code k = j mod 4 of word p = j div 4, so j = 4p + k, and j ↦ (p, k) is a bijection of the 4096
  columns with the pairs (word, code). The extended reals are a commutative monoid under addition,
  so the sum may be taken plane by plane: first over the words of code 0, then of code 1, 2 and 3.
  No finiteness of the summands is used.

  The two float constants of the clamp, and the two integer constants of the reference's clamp,
  denote -128 and 127.
-/
import proofs.«408621_j59803124630310_3_alg».proof.Proof.Spec
import Mathlib.Algebra.BigOperators.Fin
import Mathlib.Algebra.BigOperators.Group.Finset.Sigma
import Mathlib.Data.Fintype.BigOperators

noncomputable section

open scoped BigOperators

namespace Cert.Spec

open Idealize.ShloMosaic Idealize.ShloMosaic.ValueIdx

/-- Column j = 4p + k, as a bijection of the pairs (word p, code k) with the 4096 columns. -/
def colEquiv : Fin 1024 × Fin 4 ≃ Fin 4096 where
  toFun pk := ⟨4 * pk.1.val + pk.2.val, by have := pk.1.isLt; have := pk.2.isLt; omega⟩
  invFun j := (⟨j.val / 4, by have := j.isLt; omega⟩, ⟨j.val % 4, Nat.mod_lt _ (by decide)⟩)
  left_inv := by
    rintro ⟨p, k⟩
    have hp := p.isLt
    have hk := k.isLt
    refine Prod.ext (Fin.ext ?_) (Fin.ext ?_)
    · show (4 * p.val + k.val) / 4 = p.val
      omega
    · show (4 * p.val + k.val) % 4 = k.val
      omega
  right_inv := by
    intro j
    refine Fin.ext ?_
    show 4 * (j.val / 4) + j.val % 4 = j.val
    omega

/-- Column 4p + k of the unpacked weight row is code k of word p. -/
theorem wcol_col (w : SW.Idx → BitVec 32) (n : Fin 11008) (p : Fin 1024) (k : Fin 4)
    (h : 4 * p.val + k.val < 4096) : wcol w n ⟨4 * p.val + k.val, h⟩ = code w n p k := by
  have hp := p.isLt
  have hk := k.isLt
  unfold wcol
  congr 1
  · refine Fin.ext ?_
    show (4 * p.val + k.val) / 4 = p.val
    omega
  · refine Fin.ext ?_
    show (4 * p.val + k.val) % 4 = k.val
    omega

/-- The sum over all 4096 columns is the four planes added in order, from zero. -/
theorem acc_eq_planes (x : SX.Idx → EReal) (w : SW.Idx → BitVec 32) (a : Fin 8192) (n : Fin 11008) :
    acc x w a n = (((0 + plane x w a n 0) + plane x w a n 1) + plane x w a n 2) + plane x w a n 3 := by
  -- the four planes in order are the sum over the codes k
  have h4 : (((0 + plane x w a n 0) + plane x w a n 1) + plane x w a n 2) + plane x w a n 3
      = ∑ k : Fin 4, plane x w a n k := by
    rw [Fin.sum_univ_four, zero_add]
  rw [h4]
  unfold acc plane
  -- codes outside, words inside; exchange, then read the double sum as one over pairs
  rw [Finset.sum_comm]
  rw [← Fintype.sum_prod_type'
    (f := fun (p : Fin 1024) (k : Fin 4) =>
      quant x a ⟨4 * p.val + k.val, by have := p.isLt; have := k.isLt; omega⟩ * code w n p k)]
  -- and the pairs are the columns
  symm
  refine Fintype.sum_equiv colEquiv _ _ ?_
  rintro ⟨p, k⟩
  show quant x a ⟨4 * p.val + k.val, _⟩ * code w n p k
      = quant x a ⟨4 * p.val + k.val, _⟩ * wcol w n ⟨4 * p.val + k.val, _⟩
  rw [wcol_col]

/-- The pattern 0xC3000000 denotes -128. -/
theorem ofBits_neg128 : Ideal.ofBits .f32 0xC3000000#32 = ((-128 : ℝ) : EReal) := by
  simp [Ideal.ofBits, Ideal.ieee, -EReal.coe_mul]; norm_num

/-- The pattern 0x42FE0000 denotes 127. -/
theorem ofBits_127 : Ideal.ofBits .f32 0x42FE0000#32 = ((127 : ℝ) : EReal) := by
  simp [Ideal.ofBits, Ideal.ieee, -EReal.coe_mul]; norm_num

/-- The word 4294967168 = 2^32 - 128, read as a signed integer, is -128. -/
theorem toInt_neg128 : (((4294967168#32 : BitVec 32).toInt : ℤ) : ℝ) = -128 := by
  have h : (4294967168#32 : BitVec 32).toInt = -128 := by decide
  rw [h]; norm_num

/-- The word 127, read as a signed integer, is 127. -/
theorem toInt_127 : (((127#32 : BitVec 32).toInt : ℤ) : ℝ) = 127 := by
  have h : (127#32 : BitVec 32).toInt = 127 := by decide
  rw [h]; norm_num

end Cert.Spec

end
-- ==== Proof.KI.Reg0Value.lean ====
/-
  What region 0 leaves in its two output arrays, as whole arrays, at the extended reals, whatever the buffers
  held when the region was entered.

  The body's arithmetic on a block x0 of 256 rows, read at row p and column q:
    the column of scales at (p, ·) is 127 / max (max over k of |x0 p k|) ε,
    the quantized block at (p, q) is  clamp (round-half-even (x0 p q · scale at p)) to [-128, 127].
  Point t of the grid writes back block t — rows 256 t … 256 t + 255 — of each output array, and row r of the
  activations lies in block r / 256 at row r mod 256; so each output array ends as the same row-wise function of
  the whole activations.
-/
import proofs.«408621_j59803124630310_3_alg».proof.Proof.KI.Reg0
import proofs.«408621_j59803124630310_3_alg».proof.Proof.Spec
import proofs.«408621_j59803124630310_3_alg».proof.Proof.LibColumns
import proofs.«408621_j59803124630310_3_alg».proof.Proof.Algebra
import Idealize.ShloMosaic.Lib.Pipeline.Value
import Idealize.ShloMosaic.Lib.ValueIdx
import Idealize.ShloMosaic.PureOps.Ideal.Laws

set_option maxRecDepth 16384

noncomputable section

namespace Cert.KernelIdeal.Hand0Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's arithmetic read at a row and a column -/

/-- The row maximum of |x0|, at row p: the fold of max from the accumulator over the row's 4096 columns. -/
theorem rowmax_apply (x0 : Vec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 (absf x0) 0xFF800000#32 h hφ hacc (ix1 p)
      = (Finset.univ : Finset (Fin 4096)).fold max (Ideal.ofBits .f32 0xFF800000#32)
          (fun k => max (x0 (ix2 p k)) (-(x0 (ix2 p k)))) := by
  refine (Ideal.multiReduction_maximumf_single (absf x0) _ h hφ hacc (ix1 p)).trans ?_
  refine congrArg ((Finset.univ : Finset (Fin 4096)).fold max (Ideal.ofBits .f32 0xFF800000#32)) ?_
  funext k
  have e : h.lift (ix1 p) k = ix2 p k := by
    funext a; apply Fin.ext
    match a with
    | ⟨0, _⟩ => rfl
    | ⟨1, _⟩ => rfl
  exact congrArg (fun i => max (x0 i) (-(x0 i))) e

theorem pay1_apply (x0 : Vec Ideal S256x4096 .f32) (p : Fin 256) (u : Fin 1) :
    k0_pay1 (F := Ideal) x0 (ix2 p u)
      = Ideal.div (Ideal.ofBits .f32 0x42FE0000#32)
          (max ((Finset.univ : Finset (Fin 4096)).fold max (Ideal.ofBits .f32 0xFF800000#32)
                  (fun k => max (x0 (ix2 p k)) (-(x0 (ix2 p k)))))
               (Ideal.ofBits .f32 0x3727C5AC#32)) := by
  unfold k0_pay1
  rw [divf_apply, maximumf_apply, broadcast_apply, broadcast_apply]
  refine congrArg (fun z => Ideal.div (Ideal.ofBits .f32 0x42FE0000#32) (max z (Ideal.ofBits .f32 0x3727C5AC#32))) ?_
  exact (Cert.Lib.Columns.shapeCast_a_a1_apply _ _ p u).trans (rowmax_apply x0 _ _ _ p)

theorem pay2_apply (x0 : Vec Ideal S256x4096 .f32) (p : Fin 256) (q : Fin 4096) :
    k0_pay2 (F := Ideal) x0 (ix2 p q)
      = min (max (Ideal.liftRound Ideal.roundHalfEven (x0 (ix2 p q) * k0_pay1 (F := Ideal) x0 (ix2 p (0 : Fin 1))))
              ((-128 : ℝ) : EReal)) ((127 : ℝ) : EReal) := by
  unfold k0_pay2
  rw [truncf_apply, minimumf_apply, maximumf_apply, broadcast_apply, broadcast_apply]
  have hlo : FloatOps.ofBits (F := Ideal) .f32 0xC3000000#32 = ((-128 : ℝ) : EReal) := Cert.Spec.ofBits_neg128
  have hhi : FloatOps.ofBits (F := Ideal) .f32 0x42FE0000#32 = ((127 : ℝ) : EReal) := Cert.Spec.ofBits_127
  rw [hlo, hhi]
  refine congrArg (fun z => min (max (Ideal.liftRound Ideal.roundHalfEven (x0 (ix2 p q) * z)) ((-128 : ℝ) : EReal)) ((127 : ℝ) : EReal)) ?_
  exact Cert.Lib.Columns.broadcastTo_a1_ab_apply _ _ p q

/-! ## A block row against a row of the whole activations -/

/-- If row p of the block x0 is row r of the activations X, the block's scale at row p is the scale of row r. -/
theorem scale_block (X : S8192x4096.Idx → EReal) (x0 : Vec Ideal S256x4096 .f32) (r : Fin 8192) (p : Fin 256)
    (hx : ∀ k : Fin 4096, x0 (ix2 p k) = X (ix2 r k)) (u : Fin 1) :
    k0_pay1 (F := Ideal) x0 (ix2 p u) = Cert.Spec.scale X r := by
  rw [pay1_apply]
  have e : (fun k : Fin 4096 => max (x0 (ix2 p k)) (-(x0 (ix2 p k)))) = fun k => max (X (ix2 r k)) (-(X (ix2 r k))) :=
    funext fun k => by rw [hx k]
  rw [e]
  rfl

/-- … and the block's quantized entry at (p, q) is the quantized entry of X at (r, q). -/
theorem quant_block (X : S8192x4096.Idx → EReal) (x0 : Vec Ideal S256x4096 .f32) (r : Fin 8192) (p : Fin 256)
    (hx : ∀ k : Fin 4096, x0 (ix2 p k) = X (ix2 r k)) (q : Fin 4096) :
    k0_pay2 (F := Ideal) x0 (ix2 p q) = Cert.Spec.quant X r q := by
  rw [pay2_apply, scale_block X x0 r p hx 0, hx q]
  rfl

/-! ## The two output arrays as functions of the whole activations -/

abbrev quantArr (X : S8192x4096.Idx → EReal) : S8192x4096.Idx → EReal := fun i => Cert.Spec.quant X (i 0) (i 1)
abbrev scaleArr (X : S8192x4096.Idx → EReal) : S8192x1.Idx → EReal := fun i => Cert.Spec.scale X (i 0)

/-! ## From blocks to arrays -/

variable (V : (c : Dev nD) → (b : Ref sig .tc) → Buf (Elt Ideal) ((c : Thread nD τ).loc b))

theorem hz : (![0, 0] : Fin 2 → Nat) = fun _ => 0 :=
  funext fun a => by match a with | ⟨0, _⟩ => rfl | ⟨1, _⟩ => rfl

/-- At grid point t every window's block index is (t, 0): block t of the rows, the one block of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The same at a general index y of the block and i of the array, given that row (y 0) of the block is row (i 0) of
    X and that the columns agree. -/
theorem quant_point (X : S8192x4096.Idx → EReal) (x0 : Vec Ideal S256x4096 .f32) (y : S256x4096.Idx) (i : S8192x4096.Idx)
    (hx : ∀ k : Fin 4096, x0 (ix2 (y 0) k) = X (ix2 (i 0) k)) (h1 : (i 1).val = (y 1).val) :
    k0_pay2 (F := Ideal) x0 y = Cert.Spec.quant X (i 0) (i 1) :=
  calc k0_pay2 (F := Ideal) x0 y = k0_pay2 (F := Ideal) x0 (ix2 (y 0) (y 1)) := congrArg _ (eq_ix2 y)
    _ = Cert.Spec.quant X (i 0) (y 1) := quant_block X x0 (i 0) (y 0) hx (y 1)
    _ = Cert.Spec.quant X (i 0) (i 1) := congrArg (Cert.Spec.quant X (i 0)) (Fin.ext h1.symm)

theorem scale_point (X : S8192x4096.Idx → EReal) (x0 : Vec Ideal S256x4096 .f32) (y : S256x1.Idx) (i : S8192x1.Idx)
    (hx : ∀ k : Fin 4096, x0 (ix2 (y 0) k) = X (ix2 (i 0) k)) :
    k0_pay1 (F := Ideal) x0 y = Cert.Spec.scale X (i 0) :=
  calc k0_pay1 (F := Ideal) x0 y = k0_pay1 (F := Ideal) x0 (ix2 (y 0) (y 1)) := congrArg _ (eq_ix2 y)
    _ = Cert.Spec.scale X (i 0) := scale_block X x0 (i 0) (y 0) hx (y 1)

/-- What point t writes back to the first output array is block t of the quantized activations. -/
theorem flushed1_eq (c : Dev nD) (t : Fin cfg0.N) :
    (dat0 (F := Ideal) V c).flushed 1 t = ((cfg0.win 1).blk t).view.read (Elt Ideal) (quantArr (V c main_arg0)) := by
  show (cfg0.win 1).cut (grid0.coords t) ((dat0 (F := Ideal) V c).after 1 t) = _
  rw [after0_1]
  unfold out0_1
  rw [View.canon_unit_zero hz]
  simp only [View.ld_unit_zero (S := S256x4096) hz]
  obtain ⟨e00, e01, e10, e11, e20, e21⟩ := idx_facts t
  funext j
  show k0_pay2 (F := Ideal) (iblk0 V c 0 t) j = quantArr (V c main_arg0) (((cfg0.win 1).blk t).view.emb j)
  refine quant_point (V c main_arg0) (iblk0 V c 0 t) j (((cfg0.win 1).blk t).view.emb j) (fun k => ?_) ?_
  · show V c main_arg0 (((cfg0.win 0).blk t).view.emb (ix2 (j 0) k)) = V c main_arg0 (ix2 (((cfg0.win 1).blk t).view.emb j 0) k)
    refine congrArg (V c main_arg0) ?_
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * k.val = k.val; omega
  · show win0_1.index t (1 : Fin 2) * 4096 + 1 * (j 1).val = (j 1).val; omega

/-- What point t writes back to the second output array is block t of the column of row scales. -/
theorem flushed2_eq (c : Dev nD) (t : Fin cfg0.N) :
    (dat0 (F := Ideal) V c).flushed 2 t = ((cfg0.win 2).blk t).view.read (Elt Ideal) (scaleArr (V c main_arg0)) := by
  show (cfg0.win 2).cut (grid0.coords t) ((dat0 (F := Ideal) V c).after 2 t) = _
  rw [after0_2]
  unfold out0_2
  rw [View.canon_unit_zero hz]
  simp only [View.ld_unit_zero (S := S256x4096) hz]
  obtain ⟨e00, e01, e10, e11, e20, e21⟩ := idx_facts t
  funext j
  show k0_pay1 (F := Ideal) (iblk0 V c 0 t) j = scaleArr (V c main_arg0) (((cfg0.win 2).blk t).view.emb j)
  refine scale_point (V c main_arg0) (iblk0 V c 0 t) j (((cfg0.win 2).blk t).view.emb j) (fun k => ?_)
  show V c main_arg0 (((cfg0.win 0).blk t).view.emb (ix2 (j 0) k)) = V c main_arg0 (ix2 (((cfg0.win 2).blk t).view.emb j 0) k)
  refine congrArg (V c main_arg0) ?_
  funext a; apply Fin.ext
  match a with
  | ⟨0, _⟩ => show win0_0.index t (0 : Fin 2) * 256 + 1 * (j 0).val = win0_2.index t (0 : Fin 2) * 256 + 1 * (j 0).val; omega
  | ⟨1, _⟩ => show win0_0.index t (1 : Fin 2) * 4096 + 1 * k.val = k.val; omega

/-- An index of the first output array is in point t's block iff each coordinate is in the block's range. -/
theorem mem_blk1 (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v4_0).slice (win0_1.rect t)).set ↔ _
  rw [View.set_slice_whole, Rect.mem_set_unit]
  exact Iff.rfl

/-- The same for the second output array. -/
theorem mem_blk2 (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v4_1).slice (win0_2.rect t)).set ↔ _
  rw [View.set_slice_whole, Rect.mem_set_unit]
  exact Iff.rfl

/-- Row r of the first output array lies in the block of point r / 256, which is written back. -/
theorem cover1 (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨e00, e01, e10, e11, e20, e21⟩ := idx_facts ⟨(i 0).val / 256, hlt⟩
  refine ⟨⟨(i 0).val / 256, hlt⟩, flush0_1 _, ?_⟩
  rw [mem_blk1]
  intro a
  match a with
  | ⟨0, _⟩ =>
    show win0_1.index ⟨(i 0).val / 256, hlt⟩ (0 : Fin 2) * 256 ≤ (i 0).val ∧ (i 0).val < win0_1.index ⟨(i 0).val / 256, hlt⟩ (0 : Fin 2) * 256 + 256
    rw [e10]; show (i 0).val / 256 * 256 ≤ (i 0).val ∧ (i 0).val < (i 0).val / 256 * 256 + 256; omega
  | ⟨1, _⟩ =>
    show win0_1.index ⟨(i 0).val / 256, hlt⟩ (1 : Fin 2) * 4096 ≤ (i 1).val ∧ (i 1).val < win0_1.index ⟨(i 0).val / 256, hlt⟩ (1 : Fin 2) * 4096 + 4096
    rw [e11]; omega

/-- Row r of the second output array likewise. -/
theorem cover2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  have hlt : (i 0).val / 256 < cfg0.N := by rw [hN]; omega
  obtain ⟨e00, e01, e10, e11, e20, e21⟩ := idx_facts ⟨(i 0).val / 256, hlt⟩
  refine ⟨⟨(i 0).val / 256, hlt⟩, flush0_2 _, ?_⟩
  rw [mem_blk2]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    rw [e20]; show (i 0).val / 256 * 256 ≤ (i 0).val ∧ (i 0).val < (i 0).val / 256 * 256 + 256; omega
  | ⟨1, _⟩ =>
    show win0_2.index ⟨(i 0).val / 256, hlt⟩ (1 : Fin 2) * 1 ≤ (i 1).val ∧ (i 1).val < win0_2.index ⟨(i 0).val / 256, hlt⟩ (1 : Fin 2) * 1 + 1
    rw [e21]; omega

/-! ## The two output arrays after the region -/

/-- The first output array ends as the quantized activations, whatever it held before. -/
theorem arr0_1 (c : Dev nD) :
    (dat0 (F := Ideal) V c).arrAt 1 cfg0.N = fun i : S8192x4096.Idx => Cert.Spec.quant (V c main_arg0) (i 0) (i 1) :=
  (dat0 (F := Ideal) V c).arrAt_eq_of_cover 1 (quantArr (V c main_arg0)) (fun t _ => flushed1_eq V c t) cover1

/-- The second output array ends as the column of row scales, whatever it held before. -/
theorem arr0_2 (c : Dev nD) :
    (dat0 (F := Ideal) V c).arrAt 2 cfg0.N = fun i : S8192x1.Idx => Cert.Spec.scale (V c main_arg0) (i 0) :=
  (dat0 (F := Ideal) V c).arrAt_eq_of_cover 2 (scaleArr (V c main_arg0)) (fun t _ => flushed2_eq V c t) cover2

end Cert.KernelIdeal.Hand0Value

end
-- ==== Proof.KI.Reg1Pay.lean ====
/-
  The three values the matmul region's body stores, each read at one entry (row r, column cc) of its 2048 × 256 block.

  The first is the zero the accumulator starts from. The second is the accumulator's update at bit plane k: what the
  accumulator held, plus the product of the activation block's row r with row cc of the weight block's plane-k codes
  (each 32-bit word shifted right by 2k as a signed word, its two low bits kept, less one, read as a signed integer),
  summed over the block's 1024 words. The third is the result block: the accumulator over the row's scale, times the
  column's scale. Each is stated over arbitrary block contents, at explicit coordinates.
-/
import proofs.«408621_j59803124630310_3_alg».proof.Proof.Gen.KernelIdeal.Skeleton
import proofs.«408621_j59803124630310_3_alg».proof.Proof.Spec
import proofs.«408621_j59803124630310_3_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand1Value

open Cert.KernelIdeal Cert.KernelIdeal.Gen
open Idealize.ShloMosaic Idealize.ShloMosaic.ValueIdx

/-! ## The accumulator's starting value -/

/-- The zero splat reads zero everywhere. -/
theorem pay1_apply (r : Fin 2048) (cc : Fin 256) : k1_pay1 (F := Ideal) (ix2 r cc) = 0 := by
  unfold k1_pay1
  refine (congrFun (shapeCast_self _ _) (ix2 r cc)).trans ?_
  exact Ideal.ofBits_zero_f32

/-! ## The contraction's operand indices

The product contracts axis 1 of the activation block with axis 1 of the code block: at result entry j and contraction
position q the left factor sits at (j 0, q) and the right factor at (j 1, q). -/

theorem lhs_dot_0 (j : S2048x256.Idx) (q : dot_S2048x1024_S256x1024_S2048x256_1_1_0_0_n_n.contr.Idx) :
    (dot_S2048x1024_S256x1024_S2048x256_1_1_0_0_n_n.lhsIdx j q 0).val = (j 0).val := by
  unfold DotDims.lhsIdx
  rw [dif_neg (show ¬(0 : Fin S2048x1024.rank) ∈ dot_S2048x1024_S256x1024_S2048x256_1_1_0_0_n_n.lhsBatch by decide),
    dif_pos (show (0 : Fin S2048x1024.rank) ∈ dot_S2048x1024_S256x1024_S2048x256_1_1_0_0_n_n.lhsNonContracting by decide)]
  rfl

theorem lhs_dot_1 (j : S2048x256.Idx) (q : dot_S2048x1024_S256x1024_S2048x256_1_1_0_0_n_n.contr.Idx) :
    (dot_S2048x1024_S256x1024_S2048x256_1_1_0_0_n_n.lhsIdx j q 1).val = (q ⟨0, by decide⟩).val :=
  dot_S2048x1024_S256x1024_S2048x256_1_1_0_0_n_n.lhsIdx_val_of_single rfl j q

theorem rhs_dot_0 (j : S2048x256.Idx) (q : dot_S2048x1024_S256x1024_S2048x256_1_1_0_0_n_n.contr.Idx) :
    (dot_S2048x1024_S256x1024_S2048x256_1_1_0_0_n_n.rhsIdx j q 0).val = (j 1).val := by
  unfold DotDims.rhsIdx
  rw [dif_neg (show ¬(0 : Fin S256x1024.rank) ∈ dot_S2048x1024_S256x1024_S2048x256_1_1_0_0_n_n.rhsBatch by decide),
    dif_pos (show (0 : Fin S256x1024.rank) ∈ dot_S2048x1024_S256x1024_S2048x256_1_1_0_0_n_n.rhsNonContracting by decide)]
  rfl

theorem rhs_dot_1 (j : S2048x256.Idx) (q : dot_S2048x1024_S256x1024_S2048x256_1_1_0_0_n_n.contr.Idx) :
    (dot_S2048x1024_S256x1024_S2048x256_1_1_0_0_n_n.rhsIdx j q 1).val = (q ⟨0, by decide⟩).val :=
  dot_S2048x1024_S256x1024_S2048x256_1_1_0_0_n_n.rhsIdx_val_of_single rfl j q

/-- The product of a 2048 × 1024 block with the transpose of a 256 × 1024 block, from zero, at (r, cc): the sum over the
    1024 shared positions. -/
theorem matmul_zero_apply (x : FVec Ideal S2048x1024 .bf16) (y : FVec Ideal S256x1024 .bf16) (r : Fin 2048) (cc : Fin 256) :
    matmul dot_S2048x1024_S256x1024_S2048x256_1_1_0_0_n_n none x y (constant S2048x256 .f32 0x00000000#32) (ix2 r cc)
      = ∑ p : Fin 1024, x (ix2 r p) * y (ix2 cc p) := by
  simp only [matmul]
  rw [Ideal.matmul_constant_zero_apply,
    ← Equiv.sum_comp (contrEquiv1 dot_S2048x1024_S256x1024_S2048x256_1_1_0_0_n_n 1024 rfl rfl).symm]
  refine Finset.sum_congr rfl fun p _ => ?_
  have hp := contrEquiv1_symm_val dot_S2048x1024_S256x1024_S2048x256_1_1_0_0_n_n 1024 rfl rfl p
  have el : dot_S2048x1024_S256x1024_S2048x256_1_1_0_0_n_n.lhsIdx (ix2 r cc)
      ((contrEquiv1 dot_S2048x1024_S256x1024_S2048x256_1_1_0_0_n_n 1024 rfl rfl).symm p) = ix2 r p :=
    funext fun a => Fin.ext (by
      match a with
      | ⟨0, _⟩ => exact lhs_dot_0 _ _
      | ⟨1, _⟩ => exact (lhs_dot_1 _ _).trans hp)
  have er : dot_S2048x1024_S256x1024_S2048x256_1_1_0_0_n_n.rhsIdx (ix2 r cc)
      ((contrEquiv1 dot_S2048x1024_S256x1024_S2048x256_1_1_0_0_n_n 1024 rfl rfl).symm p) = ix2 cc p :=
    funext fun a => Fin.ext (by
      match a with
      | ⟨0, _⟩ => exact rhs_dot_0 _ _
      | ⟨1, _⟩ => exact (rhs_dot_1 _ _).trans hp)
  rw [el, er]

/-! ## The shift amount -/

/-- The product of the 32-bit words of 2 and k is the 32-bit word of 2k. -/
theorem shift_word (k : ℕ) : Scalar.muli 2#32 (BitVec.ofNat 32 k) = BitVec.ofNat 32 (2 * k) := by
  show (2#32 : BitVec 32) * BitVec.ofNat 32 k = BitVec.ofNat 32 (2 * k)
  rw [← BitVec.ofNat_mul]

/-- A signed shift on the vector unit by less than the width is the word shift. -/
theorem shrsi_lt (x y : BitVec 32) (h : y.toNat < 32) : IntOp.shrsi .vector x y = x.sshiftRight' y := by
  unfold IntOp.shrsi
  rw [if_pos h]

/-! ## The accumulator's update -/

/-- At plane k = i 2 the update at (r, cc) is the old accumulator plus, over the block's 1024 words p, the activation
    (r, p) times code k of word (cc, p). -/
theorem pay2_apply (i : grid1.Coords) (v3 : Vec Ideal S256x1024 .i32) (v12 : Vec Ideal S2048x1024 .bf16)
    (v14 : Vec Ideal S2048x256 .f32) (r : Fin 2048) (cc : Fin 256) :
    k1_pay2 i v3 v12 v14 (ix2 r cc) = v14 (ix2 r cc) + ∑ p : Fin 1024, v12 (ix2 r p) *
      (((((v3 (ix2 cc p)).sshiftRight' (BitVec.ofNat 32 (2 * (i 2).val))) &&& 3#32) - 1#32).toInt : ℝ) := by
  have hk : (i 2).val < 4 := (i 2).isLt
  have hlt : (BitVec.ofNat 32 (2 * (i 2).val)).toNat < 32 := by
    rw [BitVec.toNat_ofNat]; omega
  unfold k1_pay2
  refine (congrFun (shapeCast_self _ _) (ix2 r cc)).trans ?_
  refine (addf_apply _ _ _).trans ?_
  refine congrArg (v14 (ix2 r cc) + ·) ?_
  refine (matmul_zero_apply _ _ r cc).trans ?_
  refine Finset.sum_congr rfl fun p _ => ?_
  refine congrArg₂ (· * ·) (congrFun (shapeCast_self _ _) (ix2 r p)) ?_
  show ((((IntOp.subi (IntOp.andi (IntOp.shrsi .vector (v3 (ix2 cc p)) (Scalar.muli 2#32 (BitVec.ofNat 32 (i 2).val))) 3#32) 1#32).toInt : ℝ)) : EReal) = _
  rw [shift_word, shrsi_lt _ _ hlt]
  rfl

/-! ## The result block -/

/-- The result at (r, cc): the accumulator there over row r's scale, times column cc's scale. -/
theorem pay3_apply (v23 : Vec Ideal S2048x1 .f32) (v25 : Vec Ideal S1x256 .f32) (v27 : Vec Ideal S2048x256 .f32)
    (r : Fin 2048) (cc : Fin 256) :
    k1_pay3 v23 v25 v27 (ix2 r cc) = Ideal.div (v27 (ix2 r cc)) (v23 (ix2 r (0 : Fin 1))) * v25 (ix2 (0 : Fin 1) cc) := by
  unfold k1_pay3
  refine (truncf_apply (ψ := .bf16) _ bitsLt_bf16_f32 (ix2 r cc)).trans ?_
  refine (mulf_apply _ _ _).trans ?_
  refine congrArg₂ (· * ·) ?_ ?_
  · refine (divf_apply _ _ _).trans ?_
    refine congrArg (Ideal.div (v27 (ix2 r cc))) ?_
    refine (Cert.Lib.Columns.broadcastTo_a1_ab_apply _ _ r cc).trans ?_
    exact congrFun (shapeCast_self _ _) (ix2 r (0 : Fin 1))
  · refine (broadcastTo_1b_ab_apply _ _ r cc).trans ?_
    exact congrFun (shapeCast_self _ _) (ix2 (0 : Fin 1) cc)

end Cert.KernelIdeal.Hand1Value

end
-- ==== Proof.KI.Reg1Value.lean ====
/-
  What the matmul region leaves in its result array, as one function of the four arrays it is handed: the regrouped
  activations q [8192, 4096], the packed weights w [11008, 1024], the column s [8192, 1] of row scales and the row
  r [1, 11008] of column scales.

  The grid's 688 points run over (i, j, k), k fastest. At point (i, j, k) the body holds rows 2048 i … of plane k of q,
  rows 256 j … of w, and the matching scales. The accumulator block is set to zero at k = 0 and at every k gains plane
  k's product: at (r, cc), the sum over the 1024 words p of q (2048 i + r, 1024 k + p) times code k of w (256 j + cc, p).
  So after point (i, j, k) it holds planes 0 … k added in order from zero (by induction on the point), and at k = 3 the
  body stores that sum over the row's scale times the column's scale into the result's block (i, j), which is then
  written back. The blocks (i, j) tile the result, so the array ends as that function entry by entry.
-/
import proofs.«408621_j59803124630310_3_alg».proof.Proof.KI.Reg1
import proofs.«408621_j59803124630310_3_alg».proof.Proof.KI.Reg1Pay
import Idealize.ShloMosaic.Lib.Pipeline.Value
import Idealize.ShloMosaic.Lib.Tactic

set_option maxRecDepth 16384

noncomputable section

open scoped BigOperators

namespace Cert.KernelIdeal.Hand1Value

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)
open Cert.Spec (mmPlane mmOut code)

-- the TensorCore's buffer contents when the region is entered
variable (V : (c : Dev nD) → (b : Ref sig .tc) → Buf (Elt Ideal) ((c : Thread nD τ).loc b))

/-! ## The grid

The 688 points run over (i, j, k) with k fastest: point t has i = t / 172, j = t / 4 mod 43, k = t mod 4. The
activation window sits at block (i, k), the weight window at block (j, 0), the row scales at (i, 0), the column
scales at (0, j), the result at (i, j). -/

theorem idx_facts : ∀ t : Fin cfg1.N,
    win1_0.index t (0 : Fin 2) = t.val / 172 ∧ win1_0.index t (1 : Fin 2) = t.val % 4
    ∧ win1_1.index t (0 : Fin 2) = t.val / 4 % 43 ∧ win1_1.index t (1 : Fin 2) = 0
    ∧ win1_2.index t (0 : Fin 2) = t.val / 172 ∧ win1_2.index t (1 : Fin 2) = 0
    ∧ win1_3.index t (0 : Fin 2) = 0 ∧ win1_3.index t (1 : Fin 2) = t.val / 4 % 43
    ∧ win1_4.index t (0 : Fin 2) = t.val / 172 ∧ win1_4.index t (1 : Fin 2) = t.val / 4 % 43
    ∧ ((grid1.coords t) 2).val = t.val % 4 :=
  (by decide +kernel : ∀ t : Fin grid1.N, _)

/-! ## The arrays and the blocks, at their literal types -/

/-- The regrouped activations, the packed weights, the row scales and the column scales, as the region finds them. -/
abbrev qarr (c : Dev nD) : Vec Ideal S8192x4096 .bf16 := V c main_v7
abbrev warr (c : Dev nD) : Vec Ideal S11008x1024 .i32 := V c main_arg1
abbrev sarr (c : Dev nD) : Vec Ideal S8192x1 .f32 := V c main_v4_1
abbrev rarr (c : Dev nD) : Vec Ideal S1x11008 .f32 := V c main_v3

/-- Each input window's block at point t. -/
abbrev qblk (c : Dev nD) (t : Fin cfg1.N) : Vec Ideal S2048x1024 .bf16 := iblk1 V c 0 t
abbrev wblk (c : Dev nD) (t : Fin cfg1.N) : Vec Ideal S256x1024 .i32 := iblk1 V c 1 t
abbrev sblk (c : Dev nD) (t : Fin cfg1.N) : Vec Ideal S2048x1 .f32 := iblk1 V c 2 t
abbrev rblk (c : Dev nD) (t : Fin cfg1.N) : Vec Ideal S1x256 .f32 := iblk1 V c 3 t

/-- Entry (r, p) of the activation block at point t is entry (2048 i + r, 1024 k + p) of the array. -/
theorem qblk_apply (c : Dev nD) (t : Fin cfg1.N) (r : Fin 2048) (p : Fin 1024) (a : Fin 8192) (j : Fin 4096)
    (ha : a.val = 2048 * (t.val / 172) + r.val) (hj : j.val = 1024 * (t.val % 4) + p.val) :
    qblk V c t (ix2 r p) = qarr V c (ix2 a j) := by
  obtain ⟨e0, e1, -⟩ := idx_facts t
  unfold qblk iblk1
  rw [View.read_apply]
  show V c main_v7 _ = V c main_v7 _
  refine congrArg (V c main_v7) (funext fun ax => Fin.ext ?_)
  match ax with
  | ⟨0, _⟩ => show win1_0.index t (0 : Fin 2) * 2048 + 1 * r.val = a.val; omega
  | ⟨1, _⟩ => show win1_0.index t (1 : Fin 2) * 1024 + 1 * p.val = j.val; omega

/-- Entry (cc, p) of the weight block at point t is entry (256 j + cc, p) of the array. -/
theorem wblk_apply (c : Dev nD) (t : Fin cfg1.N) (cc : Fin 256) (p : Fin 1024) (n : Fin 11008)
    (hn : n.val = 256 * (t.val / 4 % 43) + cc.val) :
    wblk V c t (ix2 cc p) = warr V c (ix2 n p) := by
  obtain ⟨-, -, e2, e3, -⟩ := idx_facts t
  unfold wblk iblk1
  rw [View.read_apply]
  show V c main_arg1 _ = V c main_arg1 _
  refine congrArg (V c main_arg1) (funext fun ax => Fin.ext ?_)
  match ax with
  | ⟨0, _⟩ => show win1_1.index t (0 : Fin 2) * 256 + 1 * cc.val = n.val; omega
  | ⟨1, _⟩ => show win1_1.index t (1 : Fin 2) * 1024 + 1 * p.val = p.val; omega

/-- Entry (r, 0) of the row-scale block at point t is entry (2048 i + r, 0) of the column of row scales. -/
theorem sblk_apply (c : Dev nD) (t : Fin cfg1.N) (r : Fin 2048) (a : Fin 8192)
    (ha : a.val = 2048 * (t.val / 172) + r.val) :
    sblk V c t (ix2 r (0 : Fin 1)) = sarr V c (ix2 a (0 : Fin 1)) := by
  obtain ⟨-, -, -, -, e4, e5, -⟩ := idx_facts t
  unfold sblk iblk1
  rw [View.read_apply]
  show V c main_v4_1 _ = V c main_v4_1 _
  refine congrArg (V c main_v4_1) (funext fun ax => Fin.ext ?_)
  match ax with
  | ⟨0, _⟩ => show win1_2.index t (0 : Fin 2) * 2048 + 1 * r.val = a.val; omega
  | ⟨1, _⟩ => show win1_2.index t (1 : Fin 2) * 1 + 1 * 0 = 0; omega

/-- Entry (0, cc) of the column-scale block at point t is entry (0, 256 j + cc) of the row of column scales. -/
theorem rblk_apply (c : Dev nD) (t : Fin cfg1.N) (cc : Fin 256) (n : Fin 11008)
    (hn : n.val = 256 * (t.val / 4 % 43) + cc.val) :
    rblk V c t (ix2 (0 : Fin 1) cc) = rarr V c (ix2 (0 : Fin 1) n) := by
  obtain ⟨-, -, -, -, -, -, e6, e7, -⟩ := idx_facts t
  unfold rblk iblk1
  rw [View.read_apply]
  show V c main_v3 _ = V c main_v3 _
  refine congrArg (V c main_v3) (funext fun ax => Fin.ext ?_)
  match ax with
  | ⟨0, _⟩ => show win1_3.index t (0 : Fin 2) * 1 + 1 * 0 = 0; omega
  | ⟨1, _⟩ => show win1_3.index t (1 : Fin 2) * 256 + 1 * cc.val = n.val; omega

/-! ## The planes added in order -/

/-- Plane k's partial product for k below 4 (zero beyond, which is never reached). -/
def planeN (q : Cert.Spec.SX.Idx → EReal) (w : Cert.Spec.SW.Idx → BitVec 32) (a : Fin 8192) (n : Fin 11008) (k : ℕ) : EReal :=
  if h : k < 4 then mmPlane q w a n ⟨k, h⟩ else 0

/-- Planes 0 … k added in order from zero. -/
def planes (q : Cert.Spec.SX.Idx → EReal) (w : Cert.Spec.SW.Idx → BitVec 32) (a : Fin 8192) (n : Fin 11008) : ℕ → EReal
  | 0 => 0 + planeN q w a n 0
  | k + 1 => planes q w a n k + planeN q w a n (k + 1)

/-- After plane 3 this is the stage's ordered sum. -/
theorem planes_three (q : Cert.Spec.SX.Idx → EReal) (w : Cert.Spec.SW.Idx → BitVec 32) (a : Fin 8192) (n : Fin 11008) :
    planes q w a n 3 = (((0 + mmPlane q w a n 0) + mmPlane q w a n 1) + mmPlane q w a n 2) + mmPlane q w a n 3 := rfl

/-! ## One point's update -/

/-- The accumulator's update at point t, at (r, cc): what it held there plus plane k = t mod 4 of the product, row
    2048 i + r by column 256 j + cc. -/
theorem upd_apply (c : Dev nD) (t : Fin cfg1.N) (acc : Vec Ideal S2048x256 .f32) (r : Fin 2048) (cc : Fin 256)
    (a : Fin 8192) (n : Fin 11008) (ha : a.val = 2048 * (t.val / 172) + r.val) (hn : n.val = 256 * (t.val / 4 % 43) + cc.val) :
    k1_pay2 (grid1.coords t) (wblk V c t) (qblk V c t) acc (ix2 r cc)
      = acc (ix2 r cc) + planeN (qarr V c) (warr V c) a n (t.val % 4) := by
  have hk : t.val % 4 < 4 := Nat.mod_lt _ (by decide)
  have e10 : ((grid1.coords t) 2).val = t.val % 4 := (idx_facts t).2.2.2.2.2.2.2.2.2.2
  refine (pay2_apply (grid1.coords t) (wblk V c t) (qblk V c t) acc r cc).trans ?_
  refine congrArg (acc (ix2 r cc) + ·) ?_
  unfold planeN
  rw [dif_pos hk]
  unfold mmPlane
  refine Finset.sum_congr rfl fun p _ => ?_
  rw [qblk_apply V c t r p a ⟨t.val % 4 * 1024 + p.val, by have := p.isLt; omega⟩ ha (by show t.val % 4 * 1024 + p.val = _; omega),
    wblk_apply V c t cc p n hn, e10]
  rfl

/-- The result block at point t, at (r, cc): the accumulator there over row 2048 i + r's scale, times column
    256 j + cc's scale. -/
theorem res_apply (c : Dev nD) (t : Fin cfg1.N) (acc : Vec Ideal S2048x256 .f32) (r : Fin 2048) (cc : Fin 256)
    (a : Fin 8192) (n : Fin 11008) (ha : a.val = 2048 * (t.val / 172) + r.val) (hn : n.val = 256 * (t.val / 4 % 43) + cc.val) :
    k1_pay3 (sblk V c t) (rblk V c t) acc (ix2 r cc)
      = Ideal.div (acc (ix2 r cc)) (sarr V c (ix2 a (0 : Fin 1))) * rarr V c (ix2 (0 : Fin 1) n) := by
  rw [pay3_apply, sblk_apply V c t r a ha, rblk_apply V c t cc n hn]

/-! ## The result array -/

/-- The stage's result, entry by entry. -/
abbrev G (c : Dev nD) : Vec Ideal S8192x11008 .bf16 :=
  fun i => mmOut (qarr V c) (warr V c) (sarr V c) (rarr V c) (i 0) (i 1)

/-- An entry of the result lies in point t's block when each coordinate lies in the block's range on its axis. -/
theorem mem_blk (t : Fin cfg1.N) (i : S8192x11008.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v8).slice (win1_4.rect t)).set ↔ _
  rw [View.set_slice_whole, Rect.mem_set_unit]
  exact Iff.rfl

/-- Entry (a, n) lies in the block written back at the point (a / 2048, n / 256, 3). -/
theorem cover (i : S8192x11008.Idx) :
    ∃ t : Fin cfg1.N, (cfg1.win 4).flush t = true ∧ i ∈ ((cfg1.win 4).blk t).view.set := by
  have h0 : (i 0).val < 8192 := (i 0).isLt
  have h1 : (i 1).val < 11008 := (i 1).isLt
  have hN : cfg1.N = 688 := N_1
  have hlt : 172 * ((i 0).val / 2048) + 4 * ((i 1).val / 256) + 3 < cfg1.N := by rw [hN]; omega
  obtain ⟨-, -, -, -, -, -, -, -, e8, e9, -⟩ := idx_facts ⟨172 * ((i 0).val / 2048) + 4 * ((i 1).val / 256) + 3, hlt⟩
  refine ⟨⟨172 * ((i 0).val / 2048) + 4 * ((i 1).val / 256) + 3, hlt⟩, (flush1_4 _).mpr (by dsimp only; omega), ?_⟩
  rw [mem_blk]
  dsimp only at e8 e9
  intro a
  match a with
  | ⟨0, _⟩ =>
    show win1_4.index _ (0 : Fin 2) * 2048 ≤ (i 0).val ∧ (i 0).val < win1_4.index _ (0 : Fin 2) * 2048 + 2048
    rw [e8]; omega
  | ⟨1, _⟩ =>
    show win1_4.index _ (1 : Fin 2) * 256 ≤ (i 1).val ∧ (i 1).val < win1_4.index _ (1 : Fin 2) * 256 + 256
    rw [e9]; omega

section Pieces
variable {F : FTy → Type} [FloatOps F]

/-- The offset of a load or store of a whole block: zero on both axes. -/
theorem hz : (![0, 0] : Fin 2 → Nat) = fun _ => 0 := funext fun a => by fin_cases a <;> rfl

/-- Case A leaves in the accumulator the update of the zero block: the zero is stored, read back, and the update stored
    over it. -/
theorem sout_A (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : cond1_0 i) (hc1 : ¬cond1_1 i) (x0 : Vec F S2048x1024 .bf16) (x1 : Vec F S256x1024 .i32) (x2 : Vec F S2048x1 .f32) (x3 : Vec F S1x256 .f32) :
    sout1_A_0 c i arg3 harg3 arg4 harg4 arg5 harg5 arg6 harg6 arg7 harg7 arg8 harg8 hc0 hc1 x0 x1 x2 x3 = k1_pay2 i x1 x0 (k1_pay1 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S2048x256) hz]
  simp only [View.readAt_eq_ld, harg3.read_unread, harg4.read_unread, View.readCov_unit_zero (S := S2048x256) _ hz,
    View.ld_unit_zero (S := S2048x1024) hz, View.ld_unit_zero (S := S256x1024) hz, View.ld_unit_zero (S := S2048x256) hz]

/-- Case B leaves in the accumulator the update of what it held. -/
theorem sout_B (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : ¬cond1_1 i) (x0 : Vec F S2048x1024 .bf16) (x1 : Vec F S256x1024 .i32) (x2 : Vec F S2048x1 .f32) (x3 : Vec F S1x256 .f32) (xs0 : Vec F S2048x256 .f32) :
    sout1_B_0 c i arg3 harg3 arg4 harg4 arg5 harg5 arg6 harg6 arg7 harg7 arg8 harg8 hc0 hc1 x0 x1 x2 x3 xs0 = k1_pay2 i x1 x0 xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz]
  simp only [View.readAt_eq_ld, harg3.read_unread, harg4.read_unread, harg8.read_unread,
    View.ld_unit_zero (S := S2048x1024) hz, View.ld_unit_zero (S := S256x1024) hz, View.ld_unit_zero (S := S2048x256) hz]

/-- Case C leaves in the accumulator the same update. -/
theorem sout_C (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i) (x0 : Vec F S2048x1024 .bf16) (x1 : Vec F S256x1024 .i32) (x2 : Vec F S2048x1 .f32) (x3 : Vec F S1x256 .f32) (xs0 : Vec F S2048x256 .f32) :
    sout1_C_0 c i arg3 harg3 arg4 harg4 arg5 harg5 arg6 harg6 arg7 harg7 arg8 harg8 hc0 hc1 x0 x1 x2 x3 xs0 = k1_pay2 i x1 x0 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz]
  simp only [View.readAt_eq_ld, harg3.read_unread, harg4.read_unread, harg8.read_unread,
    View.ld_unit_zero (S := S2048x1024) hz, View.ld_unit_zero (S := S256x1024) hz, View.ld_unit_zero (S := S2048x256) hz]

/-- Case C leaves in the output's buffer the result block of the accumulator it has just updated. -/
theorem out_C (c : Dev nD) (i : grid1.Coords) (arg3 : Memref sig .tc .vmem S2048x1024 .bf16) (harg3 : arg3.IsWhole) (arg4 : Memref sig .tc .vmem S256x1024 .i32) (harg4 : arg4.IsWhole) (arg5 : Memref sig .tc .vmem S2048x1 .f32) (harg5 : arg5.IsWhole) (arg6 : Memref sig .tc .vmem S1x256 .f32) (harg6 : arg6.IsWhole) (arg7 : Memref sig .tc .vmem S2048x256 .bf16) (harg7 : arg7.IsWhole) (arg8 : Memref sig .tc .vmem S2048x256 .f32) (harg8 : arg8.IsWhole) (hc0 : ¬cond1_0 i) (hc1 : cond1_1 i) (x0 : Vec F S2048x1024 .bf16) (x1 : Vec F S256x1024 .i32) (x2 : Vec F S2048x1 .f32) (x3 : Vec F S1x256 .f32) (xs0 : Vec F S2048x256 .f32) :
    out1_C_4 c i arg3 harg3 arg4 harg4 arg5 harg5 arg6 harg6 arg7 harg7 arg8 harg8 hc0 hc1 x0 x1 x2 x3 xs0 = k1_pay3 x2 x3 (k1_pay2 i x1 x0 xs0) := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz]
  simp only [View.readAt_eq_ld, harg3.read_unread, harg4.read_unread, harg5.read_unread, harg6.read_unread, harg8.read_unread,
    View.readCov_unit_zero (S := S2048x256) _ hz,
    View.ld_unit_zero (S := S2048x1024) hz, View.ld_unit_zero (S := S256x1024) hz, View.ld_unit_zero (S := S2048x256) hz,
    View.ld_unit_zero (S := S2048x1) hz, View.ld_unit_zero (S := S1x256) hz]

end Pieces

/-! ## The accumulator, point by point -/

/-- At a point with k = 0 the accumulator holds plane 0 added to zero. -/
theorem acc_first (c : Dev nD) (t : Fin cfg1.N) (h0 : t.val % 4 = 0) (r : Fin 2048) (cc : Fin 256) (a : Fin 8192) (n : Fin 11008)
    (ha : a.val = 2048 * (t.val / 172) + r.val) (hn : n.val = 256 * (t.val / 4 % 43) + cc.val) :
    (outsAt1 V c t.val t.isLt).2 (ix2 r cc) = planes (qarr V c) (warr V c) a n (t.val % 4) := by
  have h1 : ¬t.val % 4 = 3 := by omega
  rw [outsAt1_A V c t h0 h1]
  dsimp only
  refine (congrFun (sout_A (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) (ix2 r cc)).trans ?_
  refine (upd_apply V c t (k1_pay1 (F := Ideal)) r cc a n ha hn).trans ?_
  rw [pay1_apply, h0]
  rfl

/-- At a point with k ≠ 0 the accumulator holds what the point before left plus plane k: planes 0 … k, if the point
    before left planes 0 … k - 1 of the same row and column. -/
theorem acc_next (c : Dev nD) (t : Fin cfg1.N) (h0 : ¬t.val % 4 = 0)
    (prev : ∀ (r : Fin 2048) (cc : Fin 256) (a : Fin 8192) (n : Fin 11008),
      a.val = 2048 * ((t.val - 1) / 172) + r.val → n.val = 256 * ((t.val - 1) / 4 % 43) + cc.val →
      (outsAt1 V c (t.val - 1) (Nat.lt_of_le_of_lt (Nat.sub_le _ _) t.isLt)).2 (ix2 r cc) = planes (qarr V c) (warr V c) a n ((t.val - 1) % 4))
    (r : Fin 2048) (cc : Fin 256) (a : Fin 8192) (n : Fin 11008)
    (ha : a.val = 2048 * (t.val / 172) + r.val) (hn : n.val = 256 * (t.val / 4 % 43) + cc.val) :
    (outsAt1 V c t.val t.isLt).2 (ix2 r cc) = planes (qarr V c) (warr V c) a n (t.val % 4) := by
  have hk : t.val % 4 = (t.val - 1) % 4 + 1 := by omega
  have step : (outsAt1 V c (t.val - 1) (Nat.lt_of_le_of_lt (Nat.sub_le _ _) t.isLt)).2 (ix2 r cc) + planeN (qarr V c) (warr V c) a n (t.val % 4)
      = planes (qarr V c) (warr V c) a n (t.val % 4) := by
    rw [prev r cc a n (by omega) (by omega), hk]
    rfl
  by_cases h1 : t.val % 4 = 3
  · rw [outsAt1_C V c t h0 h1]
    dsimp only
    refine (congrFun (sout_C (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) (ix2 r cc)).trans ?_
    exact (upd_apply V c t (outsAt1 V c (t.val - 1) (Nat.lt_of_le_of_lt (Nat.sub_le _ _) t.isLt)).2 r cc a n ha hn).trans step
  · rw [outsAt1_B V c t h0 h1]
    dsimp only
    refine (congrFun (sout_B (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) (ix2 r cc)).trans ?_
    exact (upd_apply V c t (outsAt1 V c (t.val - 1) (Nat.lt_of_le_of_lt (Nat.sub_le _ _) t.isLt)).2 r cc a n ha hn).trans step

/-- After point t = (i, j, k) the accumulator holds, at (r, cc), planes 0 … k of row 2048 i + r by column 256 j + cc,
    added in order from zero: by induction on the point. -/
theorem acc_eq (c : Dev nD) (m : ℕ) : ∀ (t : Fin cfg1.N), t.val = m → ∀ (r : Fin 2048) (cc : Fin 256) (a : Fin 8192) (n : Fin 11008),
    a.val = 2048 * (t.val / 172) + r.val → n.val = 256 * (t.val / 4 % 43) + cc.val →
    (outsAt1 V c t.val t.isLt).2 (ix2 r cc) = planes (qarr V c) (warr V c) a n (t.val % 4) := by
  induction m with
  | zero =>
    intro t ht r cc a n ha hn
    exact acc_first V c t (by omega) r cc a n ha hn
  | succ m ih =>
    intro t ht r cc a n ha hn
    by_cases h0 : t.val % 4 = 0
    · exact acc_first V c t h0 r cc a n ha hn
    · exact acc_next V c t h0 (ih ⟨t.val - 1, Nat.lt_of_le_of_lt (Nat.sub_le _ _) t.isLt⟩ (by dsimp only; omega)) r cc a n ha hn

/-! ## What is written back -/

/-- The block written back at a point with k = 3 is that block of the stage's result. -/
theorem flushed_eq (c : Dev nD) (t : Fin cfg1.N) (hf : (cfg1.win 4).flush t = true) :
    (dat1 V c).flushed 4 t = ((cfg1.win 4).blk t).view.read (Elt Ideal) (G V c) := by
  have h3 : t.val % 4 = 3 := (flush1_4 t).mp hf
  have h0 : ¬t.val % 4 = 0 := by omega
  have ht1 : t.val - 1 < cfg1.N := Nat.lt_of_le_of_lt (Nat.sub_le _ _) t.isLt
  obtain ⟨-, -, -, -, -, -, -, -, e8, e9, -⟩ := idx_facts t
  show (cfg1.win 4).cut (grid1.coords t) ((dat1 V c).after 4 t) = _
  rw [after1_4, outsAt1_C V c t h0 h3]
  dsimp only
  funext y
  obtain ⟨r, cc, rfl⟩ : ∃ (r : Fin 2048) (cc : Fin 256), y = ix2 r cc := ⟨y 0, y 1, eq_ix2 y⟩
  have hr : r.val < 2048 := r.isLt
  have hcc : cc.val < 256 := cc.isLt
  have hN : cfg1.N = 688 := N_1
  have htl : t.val < 688 := hN ▸ t.isLt
  refine (congrFun (out_C (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h3) (iblk1 V c 0 t) (iblk1 V c 1 t) (iblk1 V c 2 t) (iblk1 V c 3 t) (outsAt1 V c (t.val - 1) (Nat.lt_of_le_of_lt (Nat.sub_le _ _) t.isLt)).2) (ix2 r cc)).trans ?_
  refine (res_apply V c t _ r cc ⟨2048 * (t.val / 172) + r.val, by omega⟩ ⟨256 * (t.val / 4 % 43) + cc.val, by omega⟩ rfl rfl).trans ?_
  rw [upd_apply V c t (outsAt1 V c (t.val - 1) (Nat.lt_of_le_of_lt (Nat.sub_le _ _) t.isLt)).2 r cc ⟨2048 * (t.val / 172) + r.val, by omega⟩ ⟨256 * (t.val / 4 % 43) + cc.val, by omega⟩ rfl rfl,
    acc_eq V c (t.val - 1) ⟨t.val - 1, ht1⟩ rfl r cc ⟨2048 * (t.val / 172) + r.val, by omega⟩ ⟨256 * (t.val / 4 % 43) + cc.val, by omega⟩
      (by dsimp only; omega) (by dsimp only; omega)]
  rw [View.read_apply]
  have hidx : ((cfg1.win 4).blk t).view.emb (ix2 r cc)
      = ix2 (⟨2048 * (t.val / 172) + r.val, by omega⟩ : Fin 8192) (⟨256 * (t.val / 4 % 43) + cc.val, by omega⟩ : Fin 11008) := by
    funext ax; apply Fin.ext
    match ax with
    | ⟨0, _⟩ => show win1_4.index t (0 : Fin 2) * 2048 + 1 * r.val = 2048 * (t.val / 172) + r.val; omega
    | ⟨1, _⟩ => show win1_4.index t (1 : Fin 2) * 256 + 1 * cc.val = 256 * (t.val / 4 % 43) + cc.val; omega
  rw [hidx]
  show _ = mmOut (qarr V c) (warr V c) (sarr V c) (rarr V c) _ _
  unfold mmOut
  have e2 : (t.val - 1) % 4 = 2 := by omega
  rw [h3, e2]
  rfl

/-! ## The result array -/

/-- Region 1 leaves in its result array the stage's result: the product of the regrouped activations with the unpacked
    codes, plane by plane from zero, over each row's scale, times each column's scale. -/
theorem arr1_4 (c : Dev nD) :
    (dat1 (F := Ideal) V c).arrAt 4 cfg1.N
      = (fun i => mmOut (V c main_v7) (V c main_arg1) (V c main_v4_1) (V c main_v3) (i 0) (i 1) : S8192x11008.Idx → EReal) :=
  (dat1 V c).arrAt_eq_of_cover 4 (G V c) (flushed_eq V c) cover

end Cert.KernelIdeal.Hand1Value

end
-- ==== Proof.KI.HostValue.lean ====
/-
  What the two stretches of host lines of the kernel program compute, read at an index, over any contents of
  the TensorCore's buffers.

  The first stretch tiles the four weight scales along the 11008 result columns: the vector of four is made a row
  [1, 4], the row is repeated 2752 times down [2752, 4], and the 2752 rows are laid end to end, first as a vector of
  11008 and then as a row [1, 11008]. Entry n of the result is therefore entry n mod 4 of the four scales.

  The second stretch permutes the 4096 columns of the quantized activations: the columns are grouped in fours
  [8192, 1024, 4], the last two axes are exchanged [8192, 4, 1024], and the axes are laid end to end again
  [8192, 4096]. Column 4p + k of the operand is column k · 1024 + p of the result.
-/
import proofs.«408621_j59803124630310_3_alg».proof.Proof.Gen.KernelIdeal.Launch
import proofs.«408621_j59803124630310_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandHost

open Cert.KernelIdeal Cert.KernelIdeal.Gen
open Idealize.ShloMosaic Idealize.ShloMosaic.ValueIdx

variable {F : FTy → Type} [FloatOps F]

/-! ## The weight scales tiled along the columns -/

/-- The first stretch's result as one term over the four scales: made a row, repeated down 2752 rows, laid end to
    end as a vector and then as a row. -/
theorem ws_term (Wv : Valuation τ sig (Elt F)) :
    (StableHlo.after hostOps0 Wv (Proc.devRef .tc main_v3) : S1x11008.Idx → Elt F .f32)
      = shapeCast S1x11008 (shapeCast S11008 (broadcastInDim S2752x4 ![0, 1] bcast_S1x4_S2752x4_0_1
          (shapeCast S1x4 (Wv (Proc.devRef .tc main_arg2) : S4.Idx → Elt F .f32) shapeCasts_S4_S1x4))
          shapeCasts_S2752x4_S11008) shapeCasts_S11008_S1x11008 := by
  simp only [hostOps0]; after_results; rfl

/-- 2752 rows of four laid end to end: position n is row n / 4, column n mod 4. -/
theorem flat_2752x4_apply {α : Type} (x : S2752x4.Idx → α) (n : Fin 11008) :
    shapeCast S11008 x shapeCasts_S2752x4_S11008 (ix1 n)
      = x (ix2 ⟨n.val / 4, by have := n.isLt; omega⟩ ⟨n.val % 4, Nat.mod_lt _ (by decide)⟩) :=
  shapeCast_apply x _ _ _ (by
    rw [Shape.rowMajor_val_two, Shape.rowMajor_val_one]
    show n.val / 4 * 4 + n.val % 4 = n.val
    omega)

/-- One row of four repeated down 2752 rows: every row is that row. -/
theorem rows_1x4_apply {α : Type} (x : S1x4.Idx → α) (r : Fin 2752) (c : Fin 4) :
    broadcastInDim S2752x4 ![0, 1] bcast_S1x4_S2752x4_0_1 x (ix2 r c) = x (ix2 (0 : Fin 1) c) :=
  broadcastInDim_apply _ _ x _ _ fun ax => match ax with
    | ⟨0, _⟩ => rfl
    | ⟨1, _⟩ => rfl

/-- After the first stretch the row of 11008 column scales holds, at column n, the weight scale n mod 4. -/
theorem ws_row (Wv : Valuation τ sig (Elt F)) (n : Fin 11008) :
    (StableHlo.after hostOps0 Wv (Proc.devRef .tc main_v3) : S1x11008.Idx → Elt F .f32) (ix2 (0 : Fin 1) n)
      = (Wv (Proc.devRef .tc main_arg2) : S4.Idx → Elt F .f32) (ix1 ⟨n.val % 4, Nat.mod_lt _ (by decide)⟩) := by
  rw [ws_term, shapeCast_a_1a_apply, flat_2752x4_apply, rows_1x4_apply, shapeCast_a_1a_apply]

/-! ## The quantized activations' columns permuted -/

/-- The second stretch's result as one term over the quantized activations: the columns grouped in fours, the
    last two axes exchanged, the axes laid end to end again. -/
theorem q_term (Wv : Valuation τ sig (Elt F)) :
    (StableHlo.after hostOps1 Wv (Proc.devRef .tc main_v7) : S8192x4096.Idx → Elt F .bf16)
      = shapeCast S8192x4096 (transpose S8192x4x1024 [0, 2, 1]
          (shapeCast S8192x1024x4 (Wv (Proc.devRef .tc main_v4_0) : S8192x4096.Idx → Elt F .bf16) shapeCasts_S8192x4096_S8192x1024x4)
          transposes_S8192x1024x4_S8192x4x1024_0_2_1) shapeCasts_S8192x4x1024_S8192x4096 := by
  simp only [hostOps1]; after_results; rfl

/-- Four planes of 1024 columns laid end to end: column k · 1024 + p is plane k, position p. -/
theorem flat_4x1024_apply {α : Type} (x : S8192x4x1024.Idx → α) (a : Fin 8192) (k : Fin 4) (p : Fin 1024) :
    shapeCast S8192x4096 x shapeCasts_S8192x4x1024_S8192x4096
        (ix2 a ⟨k.val * 1024 + p.val, by have := p.isLt; have := k.isLt; omega⟩)
      = x (ix3 a k p) :=
  shapeCast_apply x _ _ _ (by
    rw [Shape.rowMajor_val_three, Shape.rowMajor_val_two]
    show (a.val * 4 + k.val) * 1024 + p.val = a.val * 4096 + (k.val * 1024 + p.val)
    omega)

/-- 4096 columns grouped in fours: group p, place k is column 4p + k. -/
theorem group_1024x4_apply {α : Type} (x : S8192x4096.Idx → α) (a : Fin 8192) (p : Fin 1024) (k : Fin 4) :
    shapeCast S8192x1024x4 x shapeCasts_S8192x4096_S8192x1024x4 (ix3 a p k)
      = x (ix2 a ⟨4 * p.val + k.val, by have := p.isLt; have := k.isLt; omega⟩) :=
  shapeCast_apply x _ _ _ (by
    rw [Shape.rowMajor_val_two, Shape.rowMajor_val_three]
    show a.val * 4096 + (4 * p.val + k.val) = (a.val * 1024 + p.val) * 4 + k.val
    omega)

/-- After the second stretch column k · 1024 + p of the permuted activations is column 4p + k of the quantized
    activations. -/
theorem q_perm (Wv : Valuation τ sig (Elt F)) (a : Fin 8192) (k : Fin 4) (p : Fin 1024) :
    (StableHlo.after hostOps1 Wv (Proc.devRef .tc main_v7) : S8192x4096.Idx → Elt F .bf16)
        (ix2 a ⟨k.val * 1024 + p.val, by have := p.isLt; have := k.isLt; omega⟩)
      = (Wv (Proc.devRef .tc main_v4_0) : S8192x4096.Idx → Elt F .bf16)
        (ix2 a ⟨4 * p.val + k.val, by have := p.isLt; have := k.isLt; omega⟩) := by
  rw [q_term, flat_4x1024_apply, transpose_ix3_021_apply, group_1024x4_apply]

end Cert.KernelIdeal.HandHost

end
-- ==== Proof.KI.Value.lean ====
/-
  The idealized kernel's result array as one function of the arguments.

  The matmul region leaves, at (a, n), the four plane products of the arrays it is handed added in order from zero, over
  the row's scale, times the column's scale (`Cert.Spec.mmOut`). The arrays it is handed are: the quantized activations with
  column 4p + k moved to column k · 1024 + p by the host lines between the regions; the packed weights as launched; the
  column of row scales the quantizing region wrote; the four weight scales tiled along the 11008 columns by the first host
  lines. So plane k's product is the sum over the words p of quant x a (4p + k) · code w n p k, the four planes together
  are the sum over all 4096 columns (`Cert.Spec.acc_eq_planes`), and the result is `Cert.Spec.out x w ws a n`.
-/
import proofs.«408621_j59803124630310_3_alg».proof.Proof.KI.Run
import proofs.«408621_j59803124630310_3_alg».proof.Proof.KI.Reg0Value
import proofs.«408621_j59803124630310_3_alg».proof.Proof.KI.Reg1Value
import proofs.«408621_j59803124630310_3_alg».proof.Proof.KI.HostValue
import proofs.«408621_j59803124630310_3_alg».proof.Proof.Algebra

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The activations reach the quantizing region as launched: the first host lines do not write them. -/
theorem x_entry (c : Dev nD) : V1 m ρ c main_arg0 = m ((c : Thread nD τ).loc main_arg0) :=
  W1_of m ρ c main_arg0 (by decide)

/-- After the quantizing region its first output array holds the quantized activations. -/
theorem q_exit (c : Dev nD) :
    W2 m ρ c (Proc.devRef .tc main_v4_0) = fun i => Cert.Spec.quant (m ((c : Thread nD τ).loc main_arg0)) (i 0) (i 1) := by
  have h := (W2_arr m ρ c 1).trans (Cert.KernelIdeal.Hand0Value.arr0_1 (V1 m ρ) c)
  rw [x_entry m ρ c] at h
  exact h

/-- and its second the rows' scales. -/
theorem s_exit (c : Dev nD) :
    W2 m ρ c (Proc.devRef .tc main_v4_1) = fun i => Cert.Spec.scale (m ((c : Thread nD τ).loc main_arg0)) (i 0) := by
  have h := (W2_arr m ρ c 2).trans (Cert.KernelIdeal.Hand0Value.arr0_2 (V1 m ρ) c)
  rw [x_entry m ρ c] at h
  exact h

/-- The matmul region's first array: column k · 1024 + p is the quantized column 4p + k. -/
theorem q_entry (c : Dev nD) (a : Fin 8192) (k : Fin 4) (p : Fin 1024) :
    V3 m ρ c main_v7 (ix2 a ⟨k.val * 1024 + p.val, by have := p.isLt; have := k.isLt; omega⟩)
      = Cert.Spec.quant (m ((c : Thread nD τ).loc main_arg0)) a ⟨4 * p.val + k.val, by have := p.isLt; have := k.isLt; omega⟩ :=
  (Cert.KernelIdeal.HandHost.q_perm (F := Ideal) (W2 m ρ c) a k p).trans (congrFun (q_exit m ρ c) _)

/-- Its second: the packed weights as launched. -/
theorem w_entry (c : Dev nD) : V3 m ρ c main_arg1 = m ((c : Thread nD τ).loc main_arg1) :=
  (W3_of m ρ c main_arg1 (by decide)).trans ((W2_of_ne m ρ c main_arg1 (by decide)).trans (W1_of m ρ c main_arg1 (by decide)))

/-- Its third: the column of row scales. -/
theorem s_entry (c : Dev nD) (a : Fin 8192) :
    V3 m ρ c main_v4_1 (ix2 a (0 : Fin 1)) = Cert.Spec.scale (m ((c : Thread nD τ).loc main_arg0)) a :=
  (congrFun (W3_of m ρ c main_v4_1 (by decide)) _).trans (congrFun (s_exit m ρ c) _)

/-- Its fourth: the weight scales tiled along the columns. -/
theorem r_entry (c : Dev nD) (n : Fin 11008) :
    V3 m ρ c main_v3 (ix2 (0 : Fin 1) n) = m ((c : Thread nD τ).loc main_arg2) (ix1 ⟨n.val % 4, Nat.mod_lt _ (by decide)⟩) :=
  (congrFun ((W3_of m ρ c main_v3 (by decide)).trans (W2_of_ne m ρ c main_v3 (by decide))) _).trans
    (Cert.KernelIdeal.HandHost.ws_row (F := Ideal) (W0 m ρ c) n)

/-- Plane k's product over the arrays the matmul region is handed is plane k's share of the full product. -/
theorem plane_entry (c : Dev nD) (a : Fin 8192) (n : Fin 11008) (k : Fin 4) :
    Cert.Spec.mmPlane (V3 m ρ c main_v7) (V3 m ρ c main_arg1) a n k
      = Cert.Spec.plane (m ((c : Thread nD τ).loc main_arg0)) (m ((c : Thread nD τ).loc main_arg1)) a n k := by
  refine (congrArg (fun ww : Cert.Spec.SW.Idx → BitVec 32 => Cert.Spec.mmPlane (V3 m ρ c main_v7) ww a n k) (w_entry m ρ c)).trans ?_
  unfold Cert.Spec.mmPlane Cert.Spec.plane
  exact Finset.sum_congr rfl fun p _ =>
    congrArg (fun z : EReal => z * Cert.Spec.code (m ((c : Thread nD τ).loc main_arg1)) n p k) (q_entry m ρ c a k p)

/-- At explicit coordinates: the matmul stage over the arrays it is handed gives the common value of the arguments. -/
theorem result_at (c : Dev nD) (a : Fin 8192) (n : Fin 11008) :
    Cert.Spec.mmOut (V3 m ρ c main_v7) (V3 m ρ c main_arg1) (V3 m ρ c main_v4_1) (V3 m ρ c main_v3) a n
      = Cert.Spec.out (m ((c : Thread nD τ).loc main_arg0)) (m ((c : Thread nD τ).loc main_arg1)) (m ((c : Thread nD τ).loc main_arg2)) a n := by
  unfold Cert.Spec.mmOut Cert.Spec.out
  rw [plane_entry m ρ c a n 0, plane_entry m ρ c a n 1, plane_entry m ρ c a n 2, plane_entry m ρ c a n 3,
    ← Cert.Spec.acc_eq_planes, s_entry m ρ c a, r_entry m ρ c n]

/-- THE RESULT: the array the matmul region's write-backs leave is `Cert.Spec.outArr` of the arguments. -/
theorem result_eq (c : Dev nD) :
    (dat1 (F := Ideal) (V3 m ρ) c).arrAt 4 cfg1.N
      = Cert.Spec.outArr (m ((c : Thread nD τ).loc main_arg0)) (m ((c : Thread nD τ).loc main_arg1)) (m ((c : Thread nD τ).loc main_arg2)) := by
  refine (Cert.KernelIdeal.Hand1Value.arr1_4 (V3 m ρ) c).trans ?_
  funext i
  exact result_at m ρ c (i 0) (i 1)

end Cert.KernelIdeal.HandValue

end
-- ==== Proof.RefRun.lean ====
/-
  The reference program's run, written out operation by operation.

  The reference computes, for activations x : [8192, 4096], packed weights w : [11008, 1024] and weight
  scales ws : [4]:
    the row maxima of |x|, folded from -∞, kept above ε, and the row scale 127 / that;
    the quantized activations: x times its row scale, rounded half to even, clamped to [-128, 127];
    the unpacked weights: the four two-bit planes (w >> 2k) & 3 laid side by side along a new last axis,
      flattened so that column 4p + k of a row is plane k of word p, less one, as a float;
    the column index n mod 4, by the remainder with its sign repairs, and the weight scale gathered at it;
    the product of the quantized activations with the unpacked weights over the 4096 columns, divided by the
      row scale, multiplied by the gathered weight scale, narrowed to bf16.
  Its functions clip, round, remainder and where are their bodies substituted at the calls, so the program is
  one straight line of ninety-five operations; every buffer ends at the fold of the operations over the launch
  contents, and the result buffer's fold is the composed term `out` below.
-/
import proofs.«408621_j59803124630310_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The row maxima of |x| as a column: the fold of max from -∞ over each row's 4096 entries. -/
def refRowmax (x : FVec F S8192x4096 .f32) : FVec F S8192x1 .f32 :=
  broadcastInDim S8192x1 ![0] bcast_S8192_S8192x1_0
    (Host.reduce FloatOps.maximumf (Host.absf x) (constant (F := F) S_ .f32 0xFF800000#32) reducesTo_S8192x4096_S8192_d1 h_S_)

/-- The row scales as a column: 127 over the row maximum, the maximum kept above ε. -/
def refScale (x : FVec F S8192x4096 .f32) : FVec F S8192x1 .f32 :=
  Host.divf (broadcastInDim S8192x1 ![] bcast_S_S8192x1 (constant (F := F) S_ .f32 0x42FE0000#32))
    (maximumf (broadcastInDim S8192x1 ![] bcast_S_S8192x1 (constant (F := F) S_ .f32 0x3727C5AC#32)) (refRowmax x))

/-- The quantized activations: each entry times its row's scale, rounded half to even, kept above -128 and
    below 127. -/
def refQuant (x : FVec F S8192x4096 .f32) : FVec F S8192x4096 .f32 :=
  minimumf (broadcastInDim S8192x4096 ![] bcast_S_S8192x4096 (sitofp (F := F) .f32 (constantI S_ 32 127#32)))
    (maximumf (broadcastInDim S8192x4096 ![] bcast_S_S8192x4096 (sitofp (F := F) .f32 (constantI S_ 32 4294967168#32)))
      (Host.roundeven (mulf x (broadcastInDim S8192x4096 ![0, 1] bcast_S8192x1_S8192x4096_0_1 (refScale x)))))

/-- One two-bit plane of the packed weights, with a last axis of length one: (w >> s) & 3. -/
def refPlane (w : IVec S11008x1024 32) (s : BitVec 32) : IVec S11008x1024x1 32 :=
  broadcastInDim S11008x1024x1 ![0, 1] bcast_S11008x1024_S11008x1024x1_0_1
    (andi (Host.shrsi w (broadcastInDim S11008x1024 ![] bcast_S_S11008x1024 (constantI S_ 32 s)))
      (broadcastInDim S11008x1024 ![] bcast_S_S11008x1024 (constantI S_ 32 3#32)))

/-- The four planes side by side along the last axis: entry (n, p, k) is plane k of word p of row n. -/
def refPlanes (w : IVec S11008x1024 32) : IVec S11008x1024x4 32 :=
  concatenate S11008x1024x4 2
    [⟨S11008x1024x1, refPlane w 0#32⟩, ⟨S11008x1024x1, refPlane w 2#32⟩, ⟨S11008x1024x1, refPlane w 4#32⟩,
      ⟨S11008x1024x1, refPlane w 6#32⟩]
    concatenates_S11008x1024x1_S11008x1024x1_S11008x1024x1_S11008x1024x1_S11008x1024x4_d2

/-- The unpacked weights: the planes flattened to 4096 columns (column 4p + k is plane k of word p), less one,
    as floats. -/
def refUnpack (w : IVec S11008x1024 32) : FVec F S11008x4096 .f32 :=
  sitofp (F := F) .f32
    (subi (shapeCast S11008x4096 (refPlanes w) shapeCasts_S11008x1024x4_S11008x4096)
      (broadcastInDim S11008x4096 ![] bcast_S_S11008x4096 (constantI S_ 32 1#32)))

/-- The divisor the remainder is taken by: 4, or 1 were it zero. -/
def refDiv : IVec S_ 32 :=
  select (cmpi .eq (constantI S_ 32 4#32) (constantI S_ 32 0#32)) (constantI S_ 32 1#32) (constantI S_ 32 4#32)

/-- The truncated remainder of the column number by the divisor. -/
def refRem : IVec S11008 32 :=
  Host.remsi (iotaInDim S11008 32 0) (broadcastInDim S11008 ![] bcast_S_S11008 refDiv)

/-- The remainder with the divisor's sign: the divisor added back where the truncated remainder is nonzero and
    of the other sign. -/
def refMod : IVec S11008 32 :=
  select
    (andi
      (cmpi .ne (cmpi .slt refRem (broadcastInDim S11008 ![] bcast_S_S11008 (constantI S_ 32 0#32)))
        (broadcastInDim S11008 ![] bcast_S_S11008 (cmpi .slt refDiv (constantI S_ 32 0#32))))
      (cmpi .ne refRem (broadcastInDim S11008 ![] bcast_S_S11008 (constantI S_ 32 0#32))))
    (addi refRem (broadcastInDim S11008 ![] bcast_S_S11008 refDiv))
    refRem

/-- The column's index into the weight scales, as a column: n mod 4, four added were it negative. -/
def refIdx : IVec S11008x1 32 :=
  broadcastInDim S11008x1 ![0] bcast_S11008_S11008x1_0
    (select (cmpi .slt refMod (broadcastInDim S11008 ![] bcast_S_S11008 (constantI S_ 32 0#32)))
      (addi refMod (broadcastInDim S11008 ![] bcast_S_S11008 (constantI S_ 32 4#32)))
      refMod)

/-- The weight scale of each column: ws gathered at the column's index. -/
def refWs (ws : FVec F S4 .f32) : FVec F S11008 .f32 :=
  Host.gather gather_S4_S11008x1_S11008_n_0_n_n_0_1_1 ws refIdx

/-- The product of the quantized activations with the unpacked weights, summed over the 4096 columns. -/
def refDot (x : FVec F S8192x4096 .f32) (w : IVec S11008x1024 32) : FVec F S8192x11008 .f32 :=
  Host.dotGeneral dot_S8192x4096_S11008x4096_S8192x11008_1_1_0_0_n_n none (refQuant x) (refUnpack (F := F) w)

/-- The reference's result: the product over the row's scale, times the column's weight scale, narrowed to bf16. -/
def out (x : FVec F S8192x4096 .f32) (w : IVec S11008x1024 32) (ws : FVec F S4 .f32) : FVec F S8192x11008 .bf16 :=
  truncf .bf16
    (mulf (Host.divf (refDot x w) (broadcastInDim S8192x11008 ![0, 1] bcast_S8192x1_S8192x11008_0_1 (refScale x)))
      (broadcastInDim S8192x11008 ![0, 1] bcast_S1x11008_S8192x11008_0_1
        (broadcastInDim S1x11008 ![1] bcast_S11008_S1x11008_1 (refWs ws))))
    bitsLt_bf16_f32

/-! ## The operations -/

/-- The contents of a tensor of shape s and element type e. -/
abbrev Tens (F : FTy → Type) (s : Shape) (e : EltTy) : Type := (⟨s, e⟩ : BufTy).Contents (Elt F)

/-- The row scales and the quantized activations (twenty-two operations): the absolute values, the row maxima
    folded from -∞, the clip from below by ε (three operations of clip), 127 over it; the activations times their
    row's scale, rounded (one operation of round), clipped to [-128, 127] (six operations of clip). -/
abbrev opsA : List (HloOp τ sig (Elt F)) :=
  [ unary main_arg0 main_v0 (Host.absf : Tens F S8192x4096 .f32 → Tens F S8192x4096 .f32),
    nullary main_cst (constant S_ .f32 0xFF800000#32),
    binary main_v0 main_cst main_v1 ((fun x v => Host.reduce FloatOps.maximumf x v reducesTo_S8192x4096_S8192_d1 h_S_) : Tens F S8192x4096 .f32 → Tens F S_ .f32 → Tens F S8192 .f32),
    unary main_v1 main_v2 (broadcastInDim S8192x1 ![0] bcast_S8192_S8192x1_0 : Tens F S8192 .f32 → Tens F S8192x1 .f32),
    nullary main_cst_0 (constant S_ .f32 0x3727C5AC#32),
    TRef.unary (.of main_cst_0 : TRef sig ⟨S_, .f32⟩) main_call0.v0 id,
    TRef.unary main_call0.v0 main_call0.v1 (broadcastInDim S8192x1 ![] bcast_S_S8192x1),
    TRef.binary main_call0.v1 (.of main_v2 : TRef sig ⟨S8192x1, .f32⟩) main_call0.v2 maximumf,
    nullary main_cst_1 (constant S_ .f32 0x42FE0000#32),
    unary main_cst_1 main_v4 (broadcastInDim S8192x1 ![] bcast_S_S8192x1 : Tens F S_ .f32 → Tens F S8192x1 .f32),
    binary main_v4 main_v3 main_v5 (Host.divf : Tens F S8192x1 .f32 → Tens F S8192x1 .f32 → Tens F S8192x1 .f32),
    unary main_v5 main_v6 (broadcastInDim S8192x4096 ![0, 1] bcast_S8192x1_S8192x4096_0_1 : Tens F S8192x1 .f32 → Tens F S8192x4096 .f32),
    binary main_arg0 main_v6 main_v7 (mulf : Tens F S8192x4096 .f32 → Tens F S8192x4096 .f32 → Tens F S8192x4096 .f32),
    TRef.unary (.of main_v7 : TRef sig ⟨S8192x4096, .f32⟩) main_call1.v0 Host.roundeven,
    nullary main_c (constantI S_ 32 4294967168#32),
    nullary main_c_2 (constantI S_ 32 127#32),
    TRef.unary (.of main_c : TRef sig ⟨S_, .i32⟩) main_call2.v0 (sitofp .f32),
    TRef.unary main_call2.v0 main_call2.v1 (broadcastInDim S8192x4096 ![] bcast_S_S8192x4096),
    TRef.binary main_call2.v1 (.of main_v8 : TRef sig ⟨S8192x4096, .f32⟩) main_call2.v2 maximumf,
    TRef.unary (.of main_c_2 : TRef sig ⟨S_, .i32⟩) main_call2.v3 (sitofp .f32),
    TRef.unary main_call2.v3 main_call2.v4 (broadcastInDim S8192x4096 ![] bcast_S_S8192x4096),
    TRef.binary main_call2.v4 main_call2.v2 main_call2.v5 minimumf ]

/-- The four two-bit planes of the packed weights (twenty-eight operations): for each shift 0, 2, 4, 6 the
    shift's broadcast, the arithmetic shift, the mask 3's broadcast, the conjunction; then each plane given a
    last axis of length one. -/
abbrev opsB : List (HloOp τ sig (Elt F)) :=
  [ nullary main_c_3 (constantI S_ 32 0#32),
    unary main_c_3 main_v10 (broadcastInDim S11008x1024 ![] bcast_S_S11008x1024 : Tens F S_ .i32 → Tens F S11008x1024 .i32),
    binary main_arg1 main_v10 main_v11 (Host.shrsi : Tens F S11008x1024 .i32 → Tens F S11008x1024 .i32 → Tens F S11008x1024 .i32),
    nullary main_c_4 (constantI S_ 32 3#32),
    unary main_c_4 main_v12 (broadcastInDim S11008x1024 ![] bcast_S_S11008x1024 : Tens F S_ .i32 → Tens F S11008x1024 .i32),
    binary main_v11 main_v12 main_v13 (andi : Tens F S11008x1024 .i32 → Tens F S11008x1024 .i32 → Tens F S11008x1024 .i32),
    nullary main_c_5 (constantI S_ 32 2#32),
    unary main_c_5 main_v14 (broadcastInDim S11008x1024 ![] bcast_S_S11008x1024 : Tens F S_ .i32 → Tens F S11008x1024 .i32),
    binary main_arg1 main_v14 main_v15 (Host.shrsi : Tens F S11008x1024 .i32 → Tens F S11008x1024 .i32 → Tens F S11008x1024 .i32),
    nullary main_c_6 (constantI S_ 32 3#32),
    unary main_c_6 main_v16 (broadcastInDim S11008x1024 ![] bcast_S_S11008x1024 : Tens F S_ .i32 → Tens F S11008x1024 .i32),
    binary main_v15 main_v16 main_v17 (andi : Tens F S11008x1024 .i32 → Tens F S11008x1024 .i32 → Tens F S11008x1024 .i32),
    nullary main_c_7 (constantI S_ 32 4#32),
    unary main_c_7 main_v18 (broadcastInDim S11008x1024 ![] bcast_S_S11008x1024 : Tens F S_ .i32 → Tens F S11008x1024 .i32),
    binary main_arg1 main_v18 main_v19 (Host.shrsi : Tens F S11008x1024 .i32 → Tens F S11008x1024 .i32 → Tens F S11008x1024 .i32),
    nullary main_c_8 (constantI S_ 32 3#32),
    unary main_c_8 main_v20 (broadcastInDim S11008x1024 ![] bcast_S_S11008x1024 : Tens F S_ .i32 → Tens F S11008x1024 .i32),
    binary main_v19 main_v20 main_v21 (andi : Tens F S11008x1024 .i32 → Tens F S11008x1024 .i32 → Tens F S11008x1024 .i32),
    nullary main_c_9 (constantI S_ 32 6#32),
    unary main_c_9 main_v22 (broadcastInDim S11008x1024 ![] bcast_S_S11008x1024 : Tens F S_ .i32 → Tens F S11008x1024 .i32),
    binary main_arg1 main_v22 main_v23 (Host.shrsi : Tens F S11008x1024 .i32 → Tens F S11008x1024 .i32 → Tens F S11008x1024 .i32),
    nullary main_c_10 (constantI S_ 32 3#32),
    unary main_c_10 main_v24 (broadcastInDim S11008x1024 ![] bcast_S_S11008x1024 : Tens F S_ .i32 → Tens F S11008x1024 .i32),
    binary main_v23 main_v24 main_v25 (andi : Tens F S11008x1024 .i32 → Tens F S11008x1024 .i32 → Tens F S11008x1024 .i32),
    unary main_v13 main_v26 (broadcastInDim S11008x1024x1 ![0, 1] bcast_S11008x1024_S11008x1024x1_0_1 : Tens F S11008x1024 .i32 → Tens F S11008x1024x1 .i32),
    unary main_v17 main_v27 (broadcastInDim S11008x1024x1 ![0, 1] bcast_S11008x1024_S11008x1024x1_0_1 : Tens F S11008x1024 .i32 → Tens F S11008x1024x1 .i32),
    unary main_v21 main_v28 (broadcastInDim S11008x1024x1 ![0, 1] bcast_S11008x1024_S11008x1024x1_0_1 : Tens F S11008x1024 .i32 → Tens F S11008x1024x1 .i32),
    unary main_v25 main_v29 (broadcastInDim S11008x1024x1 ![0, 1] bcast_S11008x1024_S11008x1024x1_0_1 : Tens F S11008x1024 .i32 → Tens F S11008x1024x1 .i32) ]

/-- The unpacked weights and the product (seven operations): the planes side by side, flattened to 4096
    columns, less one, as floats; the quantized activations times them, summed over the columns. -/
abbrev opsC : List (HloOp τ sig (Elt F)) :=
  [ nary ![main_v26, main_v27, main_v28, main_v29] main_v30 (fun u => concatenate S11008x1024x4 2 [⟨S11008x1024x1, u 0⟩, ⟨S11008x1024x1, u 1⟩, ⟨S11008x1024x1, u 2⟩, ⟨S11008x1024x1, u 3⟩] concatenates_S11008x1024x1_S11008x1024x1_S11008x1024x1_S11008x1024x1_S11008x1024x4_d2),
    reshape main_v30 main_v31 rfl shapeCasts_S11008x1024x4_S11008x4096,
    nullary main_c_11 (constantI S_ 32 1#32),
    unary main_c_11 main_v32 (broadcastInDim S11008x4096 ![] bcast_S_S11008x4096 : Tens F S_ .i32 → Tens F S11008x4096 .i32),
    binary main_v31 main_v32 main_v33 (subi : Tens F S11008x4096 .i32 → Tens F S11008x4096 .i32 → Tens F S11008x4096 .i32),
    unary main_v33 main_v34 (sitofp .f32 : Tens F S11008x4096 .i32 → Tens F S11008x4096 .f32),
    binary main_v9 main_v34 main_v35 ((fun l r => Host.dotGeneral dot_S8192x4096_S11008x4096_S8192x11008_1_1_0_0_n_n none l r) : Tens F S8192x4096 .f32 → Tens F S11008x4096 .f32 → Tens F S8192x11008 .f32) ]

/-- The column's index n mod 4 (thirty operations): the column numbers, the divisor 4; remainder's twenty-one
    (the divisor kept from zero by where's select, the truncated remainder, its sign repair), then the repair
    of a negative index. -/
abbrev opsD : List (HloOp τ sig (Elt F)) :=
  [ nullary main_v36 (iotaInDim S11008 32 0),
    nullary main_c_12 (constantI S_ 32 4#32),
    TRef.unary (.of main_c_12 : TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S11008 ![] bcast_S_S11008),
    TRef.binary (.of main_v36 : TRef sig ⟨S11008, .i32⟩) main_call3.v3 main_call3.v4 Host.remsi,
    TRef.nullary main_call3.c_1 (constantI S_ 32 0#32),
    TRef.unary main_call3.c_1 main_call3.v5 (broadcastInDim S11008 ![] bcast_S_S11008),
    TRef.binary main_call3.v4 main_call3.v5 main_call3.v6 (cmpi .ne),
    TRef.nullary main_call3.c_2 (constantI S_ 32 0#32),
    TRef.unary main_call3.c_2 main_call3.v7 (broadcastInDim S11008 ![] bcast_S_S11008),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S11008 ![] bcast_S_S11008),
    TRef.binary main_call3.v8 main_call3.v10 main_call3.v11 (cmpi .ne),
    TRef.binary main_call3.v11 main_call3.v6 main_call3.v12 andi,
    TRef.unary main_call3.call0.v0 main_call3.v13 (broadcastInDim S11008 ![] bcast_S_S11008),
    TRef.binary main_call3.v4 main_call3.v13 main_call3.v14 addi,
    TRef.ternary main_call3.v12 main_call3.v14 main_call3.v4 main_call3.v15 select,
    nullary main_c_13 (constantI S_ 32 0#32),
    unary main_c_13 main_v38 (broadcastInDim S11008 ![] bcast_S_S11008 : Tens F S_ .i32 → Tens F S11008 .i32),
    binary main_v37 main_v38 main_v39 (cmpi .slt : Tens F S11008 .i32 → Tens F S11008 .i32 → Tens F S11008 .i1),
    nullary main_c_14 (constantI S_ 32 4#32),
    unary main_c_14 main_v40 (broadcastInDim S11008 ![] bcast_S_S11008 : Tens F S_ .i32 → Tens F S11008 .i32),
    binary main_v37 main_v40 main_v41 (addi : Tens F S11008 .i32 → Tens F S11008 .i32 → Tens F S11008 .i32),
    ternary main_v39 main_v41 main_v37 main_v42 (select : Tens F S11008 .i1 → Tens F S11008 .i32 → Tens F S11008 .i32 → Tens F S11008 .i32) ]

/-- The result (eight operations): the index as a column, the weight scales gathered at it; the product over
    the row scale, times the gathered scale, narrowed to bf16. -/
abbrev opsE : List (HloOp τ sig (Elt F)) :=
  [ unary main_v42 main_v43 (broadcastInDim S11008x1 ![0] bcast_S11008_S11008x1_0 : Tens F S11008 .i32 → Tens F S11008x1 .i32),
    binary main_arg2 main_v43 main_v44 ((fun x i => Host.gather gather_S4_S11008x1_S11008_n_0_n_n_0_1_1 x i) : Tens F S4 .f32 → Tens F S11008x1 .i32 → Tens F S11008 .f32),
    unary main_v5 main_v45 (broadcastInDim S8192x11008 ![0, 1] bcast_S8192x1_S8192x11008_0_1 : Tens F S8192x1 .f32 → Tens F S8192x11008 .f32),
    binary main_v35 main_v45 main_v46 (Host.divf : Tens F S8192x11008 .f32 → Tens F S8192x11008 .f32 → Tens F S8192x11008 .f32),
    unary main_v44 main_v47 (broadcastInDim S1x11008 ![1] bcast_S11008_S1x11008_1 : Tens F S11008 .f32 → Tens F S1x11008 .f32),
    unary main_v47 main_v48 (broadcastInDim S8192x11008 ![0, 1] bcast_S1x11008_S8192x11008_0_1 : Tens F S1x11008 .f32 → Tens F S8192x11008 .f32),
    binary main_v46 main_v48 main_v49 (mulf : Tens F S8192x11008 .f32 → Tens F S8192x11008 .f32 → Tens F S8192x11008 .f32),
    unary main_v49 main_v50 ((truncf .bf16 · bitsLt_bf16_f32) : Tens F S8192x11008 .f32 → Tens F S8192x11008 .bf16) ]

/-- The reference's ninety-five operations, in order. -/
abbrev ops : List (HloOp τ sig (Elt F)) := opsA ++ opsB ++ opsC ++ opsD ++ opsE

/-! The index chunk along its data flow: the column numbers and the divisor, the truncated remainder, its sign
    repair, the repair of a negative index. -/

/-- The column numbers and the divisor kept from zero (seven operations). -/
abbrev opsD1 : List (HloOp τ sig (Elt F)) :=
  [ nullary main_v36 (iotaInDim S11008 32 0),
    nullary main_c_12 (constantI S_ 32 4#32),
    TRef.unary (.of main_c_12 : TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select ]

/-- The truncated remainder (two operations). -/
abbrev opsD2 : List (HloOp τ sig (Elt F)) :=
  [ TRef.unary main_call3.call0.v0 main_call3.v3 (broadcastInDim S11008 ![] bcast_S_S11008),
    TRef.binary (.of main_v36 : TRef sig ⟨S11008, .i32⟩) main_call3.v3 main_call3.v4 Host.remsi ]

/-- The remainder's sign repair (fourteen operations). -/
abbrev opsD3 : List (HloOp τ sig (Elt F)) :=
  [ TRef.nullary main_call3.c_1 (constantI S_ 32 0#32),
    TRef.unary main_call3.c_1 main_call3.v5 (broadcastInDim S11008 ![] bcast_S_S11008),
    TRef.binary main_call3.v4 main_call3.v5 main_call3.v6 (cmpi .ne),
    TRef.nullary main_call3.c_2 (constantI S_ 32 0#32),
    TRef.unary main_call3.c_2 main_call3.v7 (broadcastInDim S11008 ![] bcast_S_S11008),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S11008 ![] bcast_S_S11008),
    TRef.binary main_call3.v8 main_call3.v10 main_call3.v11 (cmpi .ne),
    TRef.binary main_call3.v11 main_call3.v6 main_call3.v12 andi,
    TRef.unary main_call3.call0.v0 main_call3.v13 (broadcastInDim S11008 ![] bcast_S_S11008),
    TRef.binary main_call3.v4 main_call3.v13 main_call3.v14 addi,
    TRef.ternary main_call3.v12 main_call3.v14 main_call3.v4 main_call3.v15 select ]

/-- The repair of a negative index (seven operations). -/
abbrev opsD4 : List (HloOp τ sig (Elt F)) :=
  [ nullary main_c_13 (constantI S_ 32 0#32),
    unary main_c_13 main_v38 (broadcastInDim S11008 ![] bcast_S_S11008 : Tens F S_ .i32 → Tens F S11008 .i32),
    binary main_v37 main_v38 main_v39 (cmpi .slt : Tens F S11008 .i32 → Tens F S11008 .i32 → Tens F S11008 .i1),
    nullary main_c_14 (constantI S_ 32 4#32),
    unary main_c_14 main_v40 (broadcastInDim S11008 ![] bcast_S_S11008 : Tens F S_ .i32 → Tens F S11008 .i32),
    binary main_v37 main_v40 main_v41 (addi : Tens F S11008 .i32 → Tens F S11008 .i32 → Tens F S11008 .i32),
    ternary main_v39 main_v41 main_v37 main_v42 (select : Tens F S11008 .i1 → Tens F S11008 .i32 → Tens F S11008 .i32 → Tens F S11008 .i32) ]

/-- The thirty operations of the index chunk are the four stretches in order. -/
theorem opsD_split : (opsD : List (HloOp τ sig (Elt F))) = opsD1 ++ (opsD2 ++ (opsD3 ++ opsD4)) := rfl

/-! ## The program is that line -/

/-- The second window (no call in it) is its eight operations in order as printed. -/
theorem main_part1_eq (c : Dev nD) : main_part1 (F := F) c = seq opsE := rfl

set_option maxRecDepth 8192 in
set_option maxHeartbeats 8000000 in
/-- The first window is its eighty-seven operations: the functions' bodies substituted at their calls and the
    calls' buffer records read at their fields, both sides are one chain of steps once sequencing is
    re-associated. -/
theorem main_part0_eq (c : Dev nD) : main_part0 (F := F) c = seq (opsA ++ opsB ++ opsC ++ opsD) := by
  simp only [main_part0, fn_clip.body, fn_round.body, fn_clip_0.body, fn_where.body, fn_remainder.body,
    opsA, opsB, opsC, opsD, seq_append, seq, bind_assoc, pure_bind]
  rfl

/-- The reference is that straight line. -/
theorem main_eq (c : Dev nD) : main (F := F) c = seq ops := by
  show (main_part0 (F := F) c >>= fun _ => main_part1 (F := F) c) = seq ((opsA ++ opsB ++ opsC ++ opsD) ++ opsE)
  rw [main_part0_eq, main_part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

/-! Every operation touches the TensorCore's references only, chunk by chunk. -/

theorem opsA_sub : (opsA : List (HloOp τ sig (Elt F))).Forall fun op => op.bufs ⊆ tcRefs τ sig :=
  ⟨unary_bufs_sub .., nullary_bufs_sub .., binary_bufs_sub .., unary_bufs_sub .., nullary_bufs_sub .., unary_bufs_sub ..,
    unary_bufs_sub .., binary_bufs_sub .., nullary_bufs_sub .., unary_bufs_sub .., binary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., unary_bufs_sub .., unary_bufs_sub ..⟩

theorem opsC_sub : (opsC : List (HloOp τ sig (Elt F))).Forall fun op => op.bufs ⊆ tcRefs τ sig :=
  ⟨nary_bufs_sub .., reshape_bufs_sub .., nullary_bufs_sub .., unary_bufs_sub .., binary_bufs_sub .., unary_bufs_sub ..,
    binary_bufs_sub ..⟩

theorem opsD_sub : (opsD : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub ..⟩

theorem opsE_sub : (opsE : List (HloOp τ sig (Elt F))).Forall fun op => op.bufs ⊆ tcRefs τ sig :=
  ⟨unary_bufs_sub .., binary_bufs_sub .., unary_bufs_sub .., binary_bufs_sub .., unary_bufs_sub .., unary_bufs_sub ..,
    binary_bufs_sub .., unary_bufs_sub ..⟩

theorem ops_sub : (ops : List (HloOp τ sig (Elt F))).Forall fun op => op.bufs ⊆ tcRefs τ sig :=
  List.forall_append.2 ⟨List.forall_append.2 ⟨List.forall_append.2 ⟨List.forall_append.2 ⟨opsA_sub, opsB_sub⟩, opsC_sub⟩,
    opsD_sub⟩, opsE_sub⟩

/-! Every operation determines its results, chunk by chunk. -/

theorem opsA_fresh : ∀ op ∈ (opsA : List (HloOp τ sig (Elt F))), op.fresh = ∅ := by
  intro _ h
  repeat (cases h with | head => rfl | tail _ h => ?_)
  exact nomatch h

theorem opsB_fresh : ∀ op ∈ (opsB : List (HloOp τ sig (Elt F))), op.fresh = ∅ := by
  intro _ h
  repeat (cases h with | head => rfl | tail _ h => ?_)
  exact nomatch h

theorem opsC_fresh : ∀ op ∈ (opsC : List (HloOp τ sig (Elt F))), op.fresh = ∅ := by
  intro _ h
  repeat (cases h with | head => rfl | tail _ h => ?_)
  exact nomatch h

theorem opsD_fresh : ∀ op ∈ (opsD : List (HloOp τ sig (Elt F))), op.fresh = ∅ := by
  intro _ h
  repeat (cases h with | head => rfl | tail _ h => ?_)
  exact nomatch h

theorem opsE_fresh : ∀ op ∈ (opsE : List (HloOp τ sig (Elt F))), op.fresh = ∅ := by
  intro _ h
  repeat (cases h with | head => rfl | tail _ h => ?_)
  exact nomatch h

theorem ops_fresh : ∀ op ∈ (ops : List (HloOp τ sig (Elt F))), op.fresh = ∅ := by
  intro op h
  simp only [ops, List.mem_append] at h
  rcases h with (((h | h) | h) | h) | h
  exacts [opsA_fresh op h, opsB_fresh op h, opsC_fresh op h, opsD_fresh op h, opsE_fresh op h]

/-! ## What each chunk leaves

At any contents V the chunks find: the buffers the later chunks read, each at its term of V's contents at the
buffers the chunk reads, and the arguments and earlier results a chunk does not write as V has them. -/

/-- Running two lines one after the other folds the second over what the first leaves. -/
theorem after_app : ∀ (l₁ l₂ : List (HloOp τ sig (Elt F))) (V : Valuation τ sig (Elt F)),
    after (l₁ ++ l₂) V = after l₂ (after l₁ V)
  | [], _, _ => rfl
  | _ :: l₁, l₂, _ => after_app l₁ l₂ _

-- the folds over rows, columns and index tables stay closed terms while the chain of results is read
attribute [local irreducible] Host.reduce Host.gather concatenate

/-- One buffer after a chunk. A call's typed references are the references themselves and its operations the
    plain ones at those buffers (the transport along a type equation that is the identity is dropped); then each
    operation's result at its own buffer is its function's value and at any other buffer what was there. -/
local macro "chunk_result" : tactic =>
  `(tactic| (
    dsimp only [opsA, opsB, opsC, opsD, opsE, opsD1, opsD2, opsD4, TRef.unary, TRef.binary, TRef.ternary, TRef.nullary, TRef.of,
      TRef.ofBuf, TRef.toBuf, main_call0, main_call1, main_call2, main_call3, main_call3_call0, cast_eq]
    after_results <;> rfl))

/-- The same, the results read in one pass: for the sign repair, whose remainder has four readers. -/
local macro "chunk_result_once" : tactic =>
  `(tactic| (
    dsimp only [opsD3, TRef.unary, TRef.binary, TRef.ternary, TRef.nullary, TRef.of,
      TRef.ofBuf, TRef.toBuf, main_call3, main_call3_call0, cast_eq]
    after_results_simp <;> rfl))

/-! The index chunk stretch by stretch, at any contents W. -/

theorem D1_div (W : Valuation τ sig (Elt F)) :
    after opsD1 W (main_call3_v2 : DevRef τ sig) = (refDiv : Tens F S_ .i32) := by chunk_result
theorem D1_iota (W : Valuation τ sig (Elt F)) :
    after opsD1 W (main_v36 : DevRef τ sig) = (iotaInDim S11008 32 0 : Tens F S11008 .i32) := by chunk_result
theorem D2_rem (W : Valuation τ sig (Elt F)) :
    after opsD2 W (main_call3_v4 : DevRef τ sig)
      = Host.remsi (W (main_v36 : DevRef τ sig) : Tens F S11008 .i32)
          (broadcastInDim S11008 ![] bcast_S_S11008 (W (main_call3_v2 : DevRef τ sig) : Tens F S_ .i32)) := by chunk_result
theorem D2_div (W : Valuation τ sig (Elt F)) :
    after opsD2 W (main_call3_v2 : DevRef τ sig) = W (main_call3_v2 : DevRef τ sig) := by chunk_result
theorem D3_mod (W : Valuation τ sig (Elt F)) :
    after opsD3 W (main_v37 : DevRef τ sig)
      = select
          (andi
            (cmpi .ne (cmpi .slt (W (main_call3_v4 : DevRef τ sig) : Tens F S11008 .i32) (broadcastInDim S11008 ![] bcast_S_S11008 (constantI S_ 32 0#32)))
              (broadcastInDim S11008 ![] bcast_S_S11008 (cmpi .slt (W (main_call3_v2 : DevRef τ sig) : Tens F S_ .i32) (constantI S_ 32 0#32))))
            (cmpi .ne (W (main_call3_v4 : DevRef τ sig) : Tens F S11008 .i32) (broadcastInDim S11008 ![] bcast_S_S11008 (constantI S_ 32 0#32))))
          (addi (W (main_call3_v4 : DevRef τ sig) : Tens F S11008 .i32) (broadcastInDim S11008 ![] bcast_S_S11008 (W (main_call3_v2 : DevRef τ sig) : Tens F S_ .i32)))
          (W (main_call3_v4 : DevRef τ sig) : Tens F S11008 .i32) := by chunk_result_once
theorem D4_v42 (W : Valuation τ sig (Elt F)) :
    after opsD4 W (main_v42 : DevRef τ sig)
      = select (cmpi .slt (W (main_v37 : DevRef τ sig) : Tens F S11008 .i32) (broadcastInDim S11008 ![] bcast_S_S11008 (constantI S_ 32 0#32)))
          (addi (W (main_v37 : DevRef τ sig) : Tens F S11008 .i32) (broadcastInDim S11008 ![] bcast_S_S11008 (constantI S_ 32 4#32)))
          (W (main_v37 : DevRef τ sig) : Tens F S11008 .i32) := by chunk_result

section Chunks

variable (V : Valuation τ sig (Elt F))

theorem A_v5 : after opsA V (main_v5 : DevRef τ sig) = refScale (V (main_arg0 : DevRef τ sig)) := by chunk_result
theorem A_v9 : after opsA V (main_v9 : DevRef τ sig) = refQuant (V (main_arg0 : DevRef τ sig)) := by chunk_result
theorem A_arg0 : after opsA V (main_arg0 : DevRef τ sig) = V (main_arg0 : DevRef τ sig) := by chunk_result
theorem A_arg1 : after opsA V (main_arg1 : DevRef τ sig) = V (main_arg1 : DevRef τ sig) := by chunk_result
theorem A_arg2 : after opsA V (main_arg2 : DevRef τ sig) = V (main_arg2 : DevRef τ sig) := by chunk_result

theorem B_v26 : after opsB V (main_v26 : DevRef τ sig) = refPlane (V (main_arg1 : DevRef τ sig)) 0#32 := by chunk_result
theorem B_v27 : after opsB V (main_v27 : DevRef τ sig) = refPlane (V (main_arg1 : DevRef τ sig)) 2#32 := by chunk_result
theorem B_v28 : after opsB V (main_v28 : DevRef τ sig) = refPlane (V (main_arg1 : DevRef τ sig)) 4#32 := by chunk_result
theorem B_v29 : after opsB V (main_v29 : DevRef τ sig) = refPlane (V (main_arg1 : DevRef τ sig)) 6#32 := by chunk_result
theorem B_v5 : after opsB V (main_v5 : DevRef τ sig) = V (main_v5 : DevRef τ sig) := by chunk_result
theorem B_v9 : after opsB V (main_v9 : DevRef τ sig) = V (main_v9 : DevRef τ sig) := by chunk_result
theorem B_arg0 : after opsB V (main_arg0 : DevRef τ sig) = V (main_arg0 : DevRef τ sig) := by chunk_result
theorem B_arg1 : after opsB V (main_arg1 : DevRef τ sig) = V (main_arg1 : DevRef τ sig) := by chunk_result
theorem B_arg2 : after opsB V (main_arg2 : DevRef τ sig) = V (main_arg2 : DevRef τ sig) := by chunk_result

theorem C_v35 : after opsC V (main_v35 : DevRef τ sig)
    = Host.dotGeneral dot_S8192x4096_S11008x4096_S8192x11008_1_1_0_0_n_n none (V (main_v9 : DevRef τ sig))
        (sitofp (F := F) .f32
          (subi
            (shapeCast S11008x4096
              (concatenate S11008x1024x4 2
                [⟨S11008x1024x1, V (main_v26 : DevRef τ sig)⟩, ⟨S11008x1024x1, V (main_v27 : DevRef τ sig)⟩,
                  ⟨S11008x1024x1, V (main_v28 : DevRef τ sig)⟩, ⟨S11008x1024x1, V (main_v29 : DevRef τ sig)⟩]
                concatenates_S11008x1024x1_S11008x1024x1_S11008x1024x1_S11008x1024x1_S11008x1024x4_d2)
              shapeCasts_S11008x1024x4_S11008x4096)
            (broadcastInDim S11008x4096 ![] bcast_S_S11008x4096 (constantI S_ 32 1#32)))) := by chunk_result
theorem C_v5 : after opsC V (main_v5 : DevRef τ sig) = V (main_v5 : DevRef τ sig) := by chunk_result
theorem C_arg0 : after opsC V (main_arg0 : DevRef τ sig) = V (main_arg0 : DevRef τ sig) := by chunk_result
theorem C_arg1 : after opsC V (main_arg1 : DevRef τ sig) = V (main_arg1 : DevRef τ sig) := by chunk_result
theorem C_arg2 : after opsC V (main_arg2 : DevRef τ sig) = V (main_arg2 : DevRef τ sig) := by chunk_result

theorem D_v42 : after opsD V (main_v42 : DevRef τ sig)
    = select (cmpi .slt refMod (broadcastInDim S11008 ![] bcast_S_S11008 (constantI S_ 32 0#32)))
        (addi refMod (broadcastInDim S11008 ![] bcast_S_S11008 (constantI S_ 32 4#32))) refMod := by
  rw [opsD_split, after_app, after_app, after_app, D4_v42, D3_mod, D2_rem, D2_div, D1_div, D1_iota]
  rfl
theorem D_v5 : after opsD V (main_v5 : DevRef τ sig) = V (main_v5 : DevRef τ sig) := by chunk_result
theorem D_v35 : after opsD V (main_v35 : DevRef τ sig) = V (main_v35 : DevRef τ sig) := by chunk_result
theorem D_arg0 : after opsD V (main_arg0 : DevRef τ sig) = V (main_arg0 : DevRef τ sig) := by chunk_result
theorem D_arg1 : after opsD V (main_arg1 : DevRef τ sig) = V (main_arg1 : DevRef τ sig) := by chunk_result
theorem D_arg2 : after opsD V (main_arg2 : DevRef τ sig) = V (main_arg2 : DevRef τ sig) := by chunk_result

theorem E_v50 : after opsE V (main_v50 : DevRef τ sig)
    = truncf .bf16
        (mulf (Host.divf (V (main_v35 : DevRef τ sig))
            (broadcastInDim S8192x11008 ![0, 1] bcast_S8192x1_S8192x11008_0_1 (V (main_v5 : DevRef τ sig))))
          (broadcastInDim S8192x11008 ![0, 1] bcast_S1x11008_S8192x11008_0_1
            (broadcastInDim S1x11008 ![1] bcast_S11008_S1x11008_1
              (Host.gather gather_S4_S11008x1_S11008_n_0_n_n_0_1_1 (V (main_arg2 : DevRef τ sig))
                (broadcastInDim S11008x1 ![0] bcast_S11008_S11008x1_0 (V (main_v42 : DevRef τ sig)))))))
        bitsLt_bf16_f32 := by chunk_result
theorem E_arg0 : after opsE V (main_arg0 : DevRef τ sig) = V (main_arg0 : DevRef τ sig) := by chunk_result
theorem E_arg1 : after opsE V (main_arg1 : DevRef τ sig) = V (main_arg1 : DevRef τ sig) := by chunk_result
theorem E_arg2 : after opsE V (main_arg2 : DevRef τ sig) = V (main_arg2 : DevRef τ sig) := by chunk_result

end Chunks

/-! ## The whole line, and the run -/

section Whole

variable (V : Valuation τ sig (Elt F))

/-- The result buffer after the whole line: the last chunk's term, its operands traced back chunk by chunk to
    the arguments, is the composed term. -/
theorem after_v50 : after ops V (main_v50 : DevRef τ sig)
    = out (V (main_arg0 : DevRef τ sig)) (V (main_arg1 : DevRef τ sig)) (V (main_arg2 : DevRef τ sig)) := by
  simp only [ops, after_app]
  rw [E_v50, D_v35, D_v5, D_arg2, D_v42, C_v35, C_v5, C_arg2, B_v9, B_v26, B_v27, B_v28, B_v29, B_v5, B_arg2,
    A_v9, A_v5, A_arg1, A_arg2]
  rfl

/-- No operation writes an argument. -/
theorem after_arg0 : after ops V (main_arg0 : DevRef τ sig) = V (main_arg0 : DevRef τ sig) := by
  simp only [ops, after_app]
  rw [E_arg0, D_arg0, C_arg0, B_arg0, A_arg0]

theorem after_arg1 : after ops V (main_arg1 : DevRef τ sig) = V (main_arg1 : DevRef τ sig) := by
  simp only [ops, after_app]
  rw [E_arg1, D_arg1, C_arg1, B_arg1, A_arg1]

theorem after_arg2 : after ops V (main_arg2 : DevRef τ sig) = V (main_arg2 : DevRef τ sig) := by
  simp only [ops, after_app]
  rw [E_arg2, D_arg2, C_arg2, B_arg2, A_arg2]

end Whole

/-- On every device, for any float values, from any memory with zero counters: every weakly fair execution of
    the reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v50).trans (after_v50 _), (h c main_arg0).trans (after_arg0 _),
      (h c main_arg1).trans (after_arg1 _), (h c main_arg2).trans (after_arg2 _)⟩)
    (run_seq scopedRefs_eq scopedSems_eq defs main (fun _ => ops) main_eq (fun _ => ops_sub) m ρ (fun _ => ops_fresh))

end Cert.ReferenceIdeal.Hand

end
-- ==== Proof.RefQuant.lean ====
/-
  The reference's row maxima, row scales and quantized activations, read at a row and a column, are the
  specification's.

  The reference builds them from host operations on whole arrays: the absolute values, the fold of max from -∞
  along each row, that vector as a column, the larger of it and ε, 127 over that; then each entry times its row's
  scale, rounded half to even, the larger of that and -128, the smaller of that and 127. A broadcast reads its
  operand at the coordinates it keeps, and the reduction along the columns at row a is the fold over the row's
  4096 entries. The clips take their bound as the first argument where the specification takes it as the
  second; max and min are commutative.
-/
import proofs.«408621_j59803124630310_3_alg».proof.Proof.RefRun
import proofs.«408621_j59803124630310_3_alg».proof.Proof.Spec
import proofs.«408621_j59803124630310_3_alg».proof.Proof.Algebra
import Idealize.ShloMosaic.PureOps.Ideal.Laws
import Idealize.ShloMosaic.Lib.Pipeline.Value
import Idealize.ShloMosaic.Lib.IdealHost
import Idealize.ShloMosaic.Lib.StableHlo.Predicate

noncomputable section

open scoped BigOperators

namespace Cert.ReferenceIdeal.HandQuant

open Cert.ReferenceIdeal Cert.ReferenceIdeal.Gen Cert.ReferenceIdeal.Hand Idealize.ShloMosaic Idealize.ShloMosaic.ValueIdx

/-! ## Indices: one spelling of a coordinate -/

theorem ij_eq {n m : Nat} (p : Fin n) (q : Fin m) : StableHlo.Predicate.ij p q = ix2 p q := by
  funext d; match d with | ⟨0, _⟩ => rfl | ⟨1, _⟩ => rfl

theorem ixP_eq {n : Nat} (p : Fin n) : StableHlo.Predicate.ixP p = ix2 p (0 : Fin 1) := by
  funext d; match d with | ⟨0, _⟩ => rfl | ⟨1, _⟩ => rfl

theorem i1q_eq {m : Nat} (q : Fin m) : StableHlo.Predicate.i1q q = ix2 (0 : Fin 1) q := by
  funext d; match d with | ⟨0, _⟩ => rfl | ⟨1, _⟩ => rfl

theorem ofFin_eq {n : Nat} (p : Fin n) : Shape.Idx.ofFin p = ix1 p := by
  funext d; match d with | ⟨0, _⟩ => rfl

/-! ## Broadcasts read at coordinates -/

/-- A scalar broadcast to any shape reads the scalar. -/
theorem bcast_scalar_apply {α : Type} {t : Shape} (h : S_.BroadcastsInDim t ![]) (v : S_.Idx → α) (j : t.Idx) :
    broadcastInDim t ![] h v j = v ix0 :=
  (StableHlo.Predicate.bcast_scalar h Gen.h_S_ v j).trans (congrArg v (eq_ix0 _))

/-- A vector as a column reads, at (p, 0), the vector at p. -/
theorem bcast_col1_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) :=
  (congrArg (broadcastInDim ⟨2, ![n, 1]⟩ ![0] h v) (ixP_eq p).symm).trans
    ((StableHlo.Predicate.bcast_col1 h v p).trans (congrArg v (ofFin_eq p)))

/-- A vector as a row reads, at (0, q), the vector at q. -/
theorem bcast_row1_apply {α : Type} {m : Nat} (h : (⟨1, ![m]⟩ : Shape).BroadcastsInDim ⟨2, ![1, m]⟩ ![1])
    (v : (⟨1, ![m]⟩ : Shape).Idx → α) (q : Fin m) :
    broadcastInDim ⟨2, ![1, m]⟩ ![1] h v (ix2 (0 : Fin 1) q) = v (ix1 q) :=
  (congrArg (broadcastInDim ⟨2, ![1, m]⟩ ![1] h v) (i1q_eq q).symm).trans
    ((StableHlo.Predicate.bcast_row1 h v q).trans (congrArg v (ofFin_eq q)))

/-- A rectangle from a column reads, at (p, q), the column at (p, 0). -/
theorem bcast_of_col_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  (congrArg (broadcastInDim ⟨2, ![n, m]⟩ ![0, 1] h v) (ij_eq p q).symm).trans
    ((StableHlo.Predicate.bcast_of_col h v p q).trans (congrArg v (ixP_eq p)))

/-- A rectangle from a row reads, at (p, q), the row at (0, q). -/
theorem bcast_of_row_apply {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 (0 : Fin 1) q) :=
  (congrArg (broadcastInDim ⟨2, ![n, m]⟩ ![0, 1] h v) (ij_eq p q).symm).trans
    ((StableHlo.Predicate.bcast_of_row h v p q).trans (congrArg v (i1q_eq q)))

/-! ## The reduction along a row -/

/-- The reduced index a with column k put back is (a, k). -/
theorem lift_row (h : S8192x4096.Reduces [1] S8192) (a : Fin 8192) (k : Fin (S8192x4096.size 1)) :
    h.lift (ix1 a) k = ix2 a (⟨k.val, k.isLt⟩ : Fin 4096) := by
  funext c
  apply Fin.ext
  match c with
  | ⟨0, _⟩ => rfl
  | ⟨1, _⟩ => rfl

/-- A fold over all of Fin m is the fold over all of Fin n when m = n. -/
theorem fold_univ_cast {α : Type} (op : α → α → α) [Std.Commutative op] [Std.Associative op] (b : α) {m n : Nat}
    (h : m = n) (f : Fin m → α) :
    (Finset.univ : Finset (Fin m)).fold op b f = (Finset.univ : Finset (Fin n)).fold op b (fun k => f (k.cast h.symm)) := by
  subst h
  rfl

/-! ## The three stages at a row and a column -/

/-- The row maximum column at row a is the fold of max from -∞ over the row's absolute values. -/
theorem refRowmax_apply (x : FVec Ideal S8192x4096 .f32) (a : Fin 8192) :
    refRowmax (F := Ideal) x (ix2 a (0 : Fin 1)) = Cert.Spec.rowmax x a := by
  have h : S8192x4096.Reduces [1] S8192 := by decide
  have hn : S8192x4096.size 1 = 4096 := rfl
  unfold refRowmax
  refine (bcast_col1_apply _ _ a).trans ?_
  refine (Host.reduce_eq_fold_single FloatOps.maximumf (Host.absf x) _ _ h Gen.h_S_ (ix1 a)).trans ?_
  refine (fold_univ_cast _ _ hn _).trans ?_
  unfold Cert.Spec.rowmax
  refine congrArg (fun f => Finset.fold max (Ideal.ofBits .f32 0xFF800000#32) f (Finset.univ : Finset (Fin 4096)))
    (funext fun k => ?_)
  show Host.absf x (h.lift (ix1 a) (k.cast hn.symm)) = _
  rw [lift_row]
  rfl

/-- The row scale column at row a is 127 over the row maximum kept above ε. -/
theorem refScale_apply (x : FVec Ideal S8192x4096 .f32) (a : Fin 8192) :
    refScale (F := Ideal) x (ix2 a (0 : Fin 1)) = Cert.Spec.scale x a := by
  unfold refScale
  rw [hostDivf_apply, maximumf_apply]
  unfold Cert.Spec.scale
  refine congrArg₂ Ideal.div ?_ ?_
  · exact bcast_scalar_apply _ _ _
  · exact (congrArg₂ max (bcast_scalar_apply _ _ _) (refRowmax_apply x a)).trans (max_comm _ _)

/-- The quantized activations at (a, j): the entry times its row's scale, rounded half to even, clamped to
    [-128, 127]. -/
theorem refQuant_apply (x : FVec Ideal S8192x4096 .f32) (a : Fin 8192) (j : Fin 4096) :
    refQuant (F := Ideal) x (ix2 a j) = Cert.Spec.quant x a j := by
  unfold refQuant
  rw [minimumf_apply, maximumf_apply]
  unfold Cert.Spec.quant
  have hhi : broadcastInDim S8192x4096 ![] bcast_S_S8192x4096 (sitofp (F := Ideal) .f32 (constantI S_ 32 127#32)) (ix2 a j)
      = ((127 : ℝ) : EReal) :=
    (bcast_scalar_apply _ _ _).trans (congrArg (fun r : ℝ => (r : EReal)) Cert.Spec.toInt_127)
  have hlo : broadcastInDim S8192x4096 ![] bcast_S_S8192x4096 (sitofp (F := Ideal) .f32 (constantI S_ 32 4294967168#32)) (ix2 a j)
      = ((-128 : ℝ) : EReal) :=
    (bcast_scalar_apply _ _ _).trans (congrArg (fun r : ℝ => (r : EReal)) Cert.Spec.toInt_neg128)
  have hmid : Host.roundeven (mulf x (broadcastInDim S8192x4096 ![0, 1] bcast_S8192x1_S8192x4096_0_1 (refScale (F := Ideal) x))) (ix2 a j)
      = Ideal.liftRound Ideal.roundHalfEven (x (ix2 a j) * Cert.Spec.scale x a) :=
    congrArg (fun z => Ideal.liftRound Ideal.roundHalfEven (x (ix2 a j) * z))
      ((bcast_of_col_apply _ _ a j).trans (refScale_apply x a))
  refine (congrArg₂ min hhi (congrArg₂ max hlo hmid)).trans ?_
  exact (min_comm _ _).trans (congrArg (fun z => min z ((127 : ℝ) : EReal)) (max_comm _ _))

end Cert.ReferenceIdeal.HandQuant

end
-- ==== Proof.RefIndex.lean ====
/-
  The reference's column index into the four weight scales, read at a column.

  The reference numbers the 11008 columns, takes the remainder of each number by 4 and reads the weight scales at
  it. The remainder is written with its guards: the divisor 4 is replaced by 1 were it zero, which it is not; the
  truncated remainder is given the divisor's sign by adding the divisor back where the remainder is nonzero and of
  the other sign, which it never is, a column number being at least zero and the divisor positive; and four is
  added to a negative index, which this one is not. So at column n each stage is the word n mod 4, and the
  gather, whose start index n mod 4 lies inside the table of four, reads the scale n mod 4 unclamped.
-/
import proofs.«408621_j59803124630310_3_alg».proof.Proof.RefRun
import Idealize.ShloMosaic.Lib.IdealHost
import Idealize.ShloMosaic.Lib.ValueIdx
import Idealize.ShloMosaic.Lib.Pipeline.Value
import Idealize.ShloMosaic.Lib.StableHlo.Predicate

noncomputable section

namespace Cert.ReferenceIdeal.HandIndex

open Cert.ReferenceIdeal Cert.ReferenceIdeal.Gen Cert.ReferenceIdeal.Hand Idealize.ShloMosaic Idealize.ShloMosaic.ValueIdx

/-- The divisor: 4 is not zero, so the guard keeps it. -/
theorem refDiv_apply : refDiv ix0 = 4#32 := by
  show Scalar.select (IntOp.cmpi .eq (4#32) (0#32)) (1#32) (4#32) = 4#32
  decide

/-- A scalar repeated along the columns reads the scalar at every column. -/
theorem scalar_col_apply {α : Type} (v : S_.Idx → α) (n : Fin 11008) :
    broadcastInDim S11008 ![] bcast_S_S11008 v (ix1 n) = v ix0 :=
  broadcastInDim_apply _ _ v _ ix0 fun a => a.elim0

/-- A word below 2³¹ has its sign bit clear. -/
theorem msb_ofNat_small (m : ℕ) (hm : m < 2 ^ 31) : (BitVec.ofNat 32 m).msb = false := by
  rw [BitVec.msb_eq_false_iff_two_mul_lt, BitVec.toNat_ofNat]
  omega

/-- The truncated remainder of a word below 2³¹ by the word 4 is the word of the value's remainder by 4: both
    signs are clear, so it is the unsigned remainder. -/
theorem srem_four (m : ℕ) (hm : m < 2 ^ 31) : (BitVec.ofNat 32 m).srem 4#32 = BitVec.ofNat 32 (m % 4) := by
  rw [BitVec.srem_eq, msb_ofNat_small m hm, show (4#32 : BitVec 32).msb = false from by decide]
  refine BitVec.eq_of_toNat_eq ?_
  show (BitVec.ofNat 32 m % 4#32).toNat = _
  rw [BitVec.toNat_umod, BitVec.toNat_ofNat, BitVec.toNat_ofNat]
  show m % 2 ^ 32 % 4 = m % 4 % 2 ^ 32
  omega

/-- The truncated remainder of a column number below 11008 by 4 is n mod 4. -/
theorem refRem_apply (n : Fin 11008) : refRem (ix1 n) = BitVec.ofNat 32 (n.val % 4) := by
  show IntOp.remsi .host (iotaInDim S11008 32 0 (ix1 n)) (broadcastInDim S11008 ![] bcast_S_S11008 refDiv (ix1 n)) = _
  rw [scalar_col_apply, refDiv_apply, iotaInDim_apply]
  show IntOp.remsi .host (BitVec.ofNat 32 n.val) 4#32 = _
  unfold IntOp.remsi
  rw [if_neg (fun h => by
    rcases h with h | ⟨_, h⟩
    · exact absurd h (by decide)
    · exact absurd h (by decide))]
  exact srem_four n.val (by have := n.isLt; omega)

/-- A word of a value below 4 is not below the zero word as a signed number. -/
theorem slt_zero_small (m : ℕ) (hm : m < 4) : IntOp.cmpi .slt (BitVec.ofNat 32 m) 0#32 = 0#1 :=
  eq_zero_of_ne_one fun h => by
    have := (StableHlo.Predicate.slt_iff_toNat (a := BitVec.ofNat 32 m) (b := 0#32)
      (by rw [BitVec.toNat_ofNat]; omega) (by decide)).mp h
    exact absurd this (Nat.not_lt_zero _)

/-- It is not negative and the divisor is positive: the first sign repair leaves it. -/
theorem refMod_apply (n : Fin 11008) : refMod (ix1 n) = BitVec.ofNat 32 (n.val % 4) := by
  show Scalar.select
      (IntOp.andi
        (IntOp.cmpi .ne
          (IntOp.cmpi .slt (refRem (ix1 n)) (broadcastInDim S11008 ![] bcast_S_S11008 (constantI S_ 32 0#32) (ix1 n)))
          (broadcastInDim S11008 ![] bcast_S_S11008 (cmpi .slt refDiv (constantI S_ 32 0#32)) (ix1 n)))
        (IntOp.cmpi .ne (refRem (ix1 n)) (broadcastInDim S11008 ![] bcast_S_S11008 (constantI S_ 32 0#32) (ix1 n))))
      (IntOp.addi (refRem (ix1 n)) (broadcastInDim S11008 ![] bcast_S_S11008 refDiv (ix1 n)))
      (refRem (ix1 n)) = _
  rw [scalar_col_apply, scalar_col_apply, refRem_apply]
  show Scalar.select
      (IntOp.andi
        (IntOp.cmpi .ne (IntOp.cmpi .slt (BitVec.ofNat 32 (n.val % 4)) 0#32) (IntOp.cmpi .slt (refDiv ix0) 0#32))
        (IntOp.cmpi .ne (BitVec.ofNat 32 (n.val % 4)) 0#32))
      _ _ = _
  rw [refDiv_apply, slt_zero_small _ (Nat.mod_lt _ (by decide)),
    show IntOp.cmpi .slt (4#32) (0#32) = 0#1 from by decide,
    show IntOp.cmpi .ne (0#1) (0#1) = 0#1 from by decide,
    show ∀ b : BitVec 1, IntOp.andi 0#1 b = 0#1 from by decide, select_zero]

/-- The second sign repair leaves it too. -/
theorem refIdx_apply (n : Fin 11008) : refIdx (ix2 n (0 : Fin 1)) = BitVec.ofNat 32 (n.val % 4) := by
  unfold refIdx
  rw [broadcastInDim_apply _ _ _ (ix2 n (0 : Fin 1)) (ix1 n) (fun a => match a with | ⟨0, _⟩ => rfl)]
  show Scalar.select
      (IntOp.cmpi .slt (refMod (ix1 n)) (broadcastInDim S11008 ![] bcast_S_S11008 (constantI S_ 32 0#32) (ix1 n)))
      (IntOp.addi (refMod (ix1 n)) (broadcastInDim S11008 ![] bcast_S_S11008 (constantI S_ 32 4#32) (ix1 n)))
      (refMod (ix1 n)) = _
  rw [scalar_col_apply, refMod_apply]
  show Scalar.select (IntOp.cmpi .slt (BitVec.ofNat 32 (n.val % 4)) 0#32) _ _ = _
  rw [slt_zero_small _ (Nat.mod_lt _ (by decide)), select_zero]

/-- The gathered weight scale of column n is ws at n mod 4: the index is in range, so it is not clamped. -/
theorem refWs_apply (ws : FVec Ideal S4 .f32) (n : Fin 11008) :
    refWs (F := Ideal) ws (ix1 n) = ws (ix1 ⟨n.val % 4, Nat.mod_lt _ (by decide)⟩) := by
  have hn : (ix1 n : S11008.Idx) = Shape.Idx.ofFin n := funext fun a => match a with | ⟨0, _⟩ => rfl
  have hp : (StableHlo.Predicate.ixP n : S11008x1.Idx) = ix2 n (0 : Fin 1) :=
    funext fun a => match a with | ⟨0, _⟩ => rfl | ⟨1, _⟩ => rfl
  have hi : refIdx (StableHlo.Predicate.ixP n) = BitVec.ofNat 32 (n.val % 4) :=
    (congrArg refIdx hp).trans (refIdx_apply n)
  have hg := StableHlo.Predicate.gather_take gather_S4_S11008x1_S11008_n_0_n_n_0_1_1 rfl rfl rfl rfl ws refIdx n
    (by decide)
  have h4 : n.val % 4 < 4 := Nat.mod_lt _ (by decide)
  have hm : min (refIdx (StableHlo.Predicate.ixP n)).toInt.toNat (4 - 1) = n.val % 4 := by
    rw [hi, StableHlo.Predicate.toInt_ofNat_small _ (by omega), Int.toNat_natCast]
    omega
  show Host.gather gather_S4_S11008x1_S11008_n_0_n_n_0_1_1 ws refIdx (ix1 n) = _
  refine (congrArg (Host.gather gather_S4_S11008x1_S11008_n_0_n_n_0_1_1 ws refIdx) hn).trans (hg.trans (congrArg ws ?_))
  exact funext fun a => match a with | ⟨0, _⟩ => Fin.ext hm

end Cert.ReferenceIdeal.HandIndex

end
-- ==== Proof.RefDot.lean ====
/-
  The reference's matrix product read at one entry.

  The reference multiplies the quantized activations (8192 rows of 4096 columns) with the unpacked weights (11008 rows
  of 4096 columns), contracting the column axis of both: entry (a, n) of the product is the sum over the 4096 columns j
  of the quantized activation (a, j) times the unpacked weight (n, j).
-/
import proofs.«408621_j59803124630310_3_alg».proof.Proof.RefRun
import Idealize.ShloMosaic.PureOps.Ideal.Laws
import Idealize.ShloMosaic.Lib.ValueIdx

noncomputable section

open scoped BigOperators

namespace Cert.ReferenceIdeal.HandDot

open Cert.ReferenceIdeal Cert.ReferenceIdeal.Gen Cert.ReferenceIdeal.Hand Idealize.ShloMosaic Idealize.ShloMosaic.ValueIdx

/-! ## The contraction's operand indices

The product contracts axis 1 of the activations with axis 1 of the weights: at result entry j and contraction position q
the left factor sits at (j 0, q) and the right factor at (j 1, q). -/

theorem lhs_refdot_0 (j : S8192x11008.Idx) (q : dot_S8192x4096_S11008x4096_S8192x11008_1_1_0_0_n_n.contr.Idx) :
    (dot_S8192x4096_S11008x4096_S8192x11008_1_1_0_0_n_n.lhsIdx j q 0).val = (j 0).val := by
  unfold DotDims.lhsIdx
  rw [dif_neg (show ¬(0 : Fin S8192x4096.rank) ∈ dot_S8192x4096_S11008x4096_S8192x11008_1_1_0_0_n_n.lhsBatch by decide),
    dif_pos (show (0 : Fin S8192x4096.rank) ∈ dot_S8192x4096_S11008x4096_S8192x11008_1_1_0_0_n_n.lhsNonContracting by decide)]
  rfl

theorem lhs_refdot_1 (j : S8192x11008.Idx) (q : dot_S8192x4096_S11008x4096_S8192x11008_1_1_0_0_n_n.contr.Idx) :
    (dot_S8192x4096_S11008x4096_S8192x11008_1_1_0_0_n_n.lhsIdx j q 1).val = (q ⟨0, by decide⟩).val :=
  dot_S8192x4096_S11008x4096_S8192x11008_1_1_0_0_n_n.lhsIdx_val_of_single rfl j q

theorem rhs_refdot_0 (j : S8192x11008.Idx) (q : dot_S8192x4096_S11008x4096_S8192x11008_1_1_0_0_n_n.contr.Idx) :
    (dot_S8192x4096_S11008x4096_S8192x11008_1_1_0_0_n_n.rhsIdx j q 0).val = (j 1).val := by
  unfold DotDims.rhsIdx
  rw [dif_neg (show ¬(0 : Fin S11008x4096.rank) ∈ dot_S8192x4096_S11008x4096_S8192x11008_1_1_0_0_n_n.rhsBatch by decide),
    dif_pos (show (0 : Fin S11008x4096.rank) ∈ dot_S8192x4096_S11008x4096_S8192x11008_1_1_0_0_n_n.rhsNonContracting by decide)]
  rfl

theorem rhs_refdot_1 (j : S8192x11008.Idx) (q : dot_S8192x4096_S11008x4096_S8192x11008_1_1_0_0_n_n.contr.Idx) :
    (dot_S8192x4096_S11008x4096_S8192x11008_1_1_0_0_n_n.rhsIdx j q 1).val = (q ⟨0, by decide⟩).val :=
  dot_S8192x4096_S11008x4096_S8192x11008_1_1_0_0_n_n.rhsIdx_val_of_single rfl j q

/-! ## The product at an entry -/

/-- Entry (a, n) of the reference's product: the sum over the 4096 columns of the quantized activation times the unpacked
    weight. -/
theorem refDot_sum (x : FVec Ideal S8192x4096 .f32) (w : IVec S11008x1024 32) (a : Fin 8192) (n : Fin 11008) :
    refDot (F := Ideal) x w (ix2 a n)
      = ∑ j : Fin 4096, refQuant (F := Ideal) x (ix2 a j) * refUnpack (F := Ideal) w (ix2 n j) := by
  unfold refDot
  simp only [Host.dotGeneral]
  rw [Ideal.dotGeneral_apply,
    ← Equiv.sum_comp (contrEquiv1 dot_S8192x4096_S11008x4096_S8192x11008_1_1_0_0_n_n 4096 rfl rfl).symm]
  refine Finset.sum_congr rfl fun p _ => ?_
  have hp := contrEquiv1_symm_val dot_S8192x4096_S11008x4096_S8192x11008_1_1_0_0_n_n 4096 rfl rfl p
  have el : dot_S8192x4096_S11008x4096_S8192x11008_1_1_0_0_n_n.lhsIdx (ix2 a n)
      ((contrEquiv1 dot_S8192x4096_S11008x4096_S8192x11008_1_1_0_0_n_n 4096 rfl rfl).symm p) = ix2 a p :=
    funext fun b => Fin.ext (by
      match b with
      | ⟨0, _⟩ => exact lhs_refdot_0 _ _
      | ⟨1, _⟩ => exact (lhs_refdot_1 _ _).trans hp)
  have er : dot_S8192x4096_S11008x4096_S8192x11008_1_1_0_0_n_n.rhsIdx (ix2 a n)
      ((contrEquiv1 dot_S8192x4096_S11008x4096_S8192x11008_1_1_0_0_n_n 4096 rfl rfl).symm p) = ix2 n p :=
    funext fun b => Fin.ext (by
      match b with
      | ⟨0, _⟩ => exact rhs_refdot_0 _ _
      | ⟨1, _⟩ => exact (rhs_refdot_1 _ _).trans hp)
  rw [el, er]

end Cert.ReferenceIdeal.HandDot

end
-- ==== Proof.RefValue.lean ====
/-
  The reference's result, read at an index, is the common value.

  The reference is one composed term: the row scale 127 over the row maximum of |x| kept above ε, the quantized
  activations, the four two-bit planes of the packed weights laid side by side and flattened, the sum of products
  over the 4096 columns, the division by the row scale and the multiplication by the weight scale gathered at
  n mod 4. The row scale and the quantized activation, the column index with the gathered weight scale, and the
  contraction as a sum over its one axis are each read at coordinates on their own; here are the unpacked weights
  and the assembly.

  The unpacked weights: a matrix given a last axis of length one reads, at (n, p, 0), the matrix at (n, p); the
  concatenation of four such pieces along the last axis reads, at (n, p, k), piece k at (n, p, 0), the pieces
  before it holding k entries along the axis; plane k is the word shifted right by 2k < 32, its low two bits; the
  flattening reads column j at (j div 4, j mod 4), because (1024 n + j div 4) 4 + j mod 4 = 4096 n + j. So the
  unpacked weight at (n, j) is code j mod 4 of word j div 4, less one, as a signed integer: column j of row n.

  The result at (a, n) is then the sum over the columns, over the row's scale, times the column's weight scale;
  narrowing the float format changes nothing over the extended reals.
-/
import proofs.«408621_j59803124630310_3_alg».proof.Proof.RefRun
import proofs.«408621_j59803124630310_3_alg».proof.Proof.Spec
import proofs.«408621_j59803124630310_3_alg».proof.Proof.Algebra
import proofs.«408621_j59803124630310_3_alg».proof.Proof.RefQuant
import proofs.«408621_j59803124630310_3_alg».proof.Proof.RefIndex
import proofs.«408621_j59803124630310_3_alg».proof.Proof.RefDot
import Idealize.ShloMosaic.PureOps.Ideal.Laws
import Idealize.ShloMosaic.Lib.Pipeline.Value
import Idealize.ShloMosaic.Lib.IdealHost
import Idealize.ShloMosaic.Lib.StableHlo.Predicate

noncomputable section

open scoped BigOperators

namespace Cert.ReferenceIdeal.HandValue

open Cert.ReferenceIdeal Cert.ReferenceIdeal.Gen Cert.ReferenceIdeal.Hand Idealize.ShloMosaic Idealize.ShloMosaic.ValueIdx
open Cert.ReferenceIdeal.HandQuant (bcast_scalar_apply bcast_row1_apply bcast_of_col_apply bcast_of_row_apply)

/-! ## The unpacked weights -/

/-- A matrix given a last axis of length one reads, at (n, p, 0), the matrix at (n, p). -/
theorem bcast_unit3_apply {α : Type} (h : S11008x1024.BroadcastsInDim S11008x1024x1 ![0, 1])
    (v : S11008x1024.Idx → α) (n : Fin 11008) (p : Fin 1024) :
    broadcastInDim S11008x1024x1 ![0, 1] h v (ix3 n p (0 : Fin 1)) = v (ix2 n p) := by
  refine broadcastInDim_apply _ h v _ (ix2 n p) (fun a => ?_)
  match a with
  | ⟨0, _⟩ => exact (if_neg (by show ¬ (11008 : Nat) = 1; decide)).symm
  | ⟨1, _⟩ => exact (if_neg (by show ¬ (1024 : Nat) = 1; decide)).symm

/-- One plane at (n, p, 0): the word shifted right by s < 32, its low two bits. -/
theorem refPlane_apply (w : IVec S11008x1024 32) (s : BitVec 32) (hs : s.toNat < 32) (n : Fin 11008) (p : Fin 1024) :
    refPlane w s (ix3 n p (0 : Fin 1)) = ((w (ix2 n p)).sshiftRight' s) &&& 3#32 := by
  unfold refPlane
  refine (bcast_unit3_apply _ _ n p).trans ?_
  unfold andi Host.shrsi
  refine (congrArg₂ IntOp.andi
    (congrArg (IntOp.shrsi .host (w (ix2 n p))) (bcast_scalar_apply _ _ _)) (bcast_scalar_apply _ _ _)).trans ?_
  show IntOp.andi (IntOp.shrsi .host (w (ix2 n p)) s) 3#32 = _
  unfold IntOp.shrsi
  rw [if_pos hs]
  rfl

/-- Pieces with a last axis of length one, side by side along that axis: at (n, p, k) the result reads piece k at
    (n, p, 0). The pieces before piece k have k entries along the axis between them. -/
theorem concat_last_apply {α : Type} (xs : List ((s : Shape) × (s.Idx → α)))
    (h : Shape.Concatenates (xs.map (·.1)) S11008x1024x4 2) (n : Fin 11008) (p : Fin 1024) (k : Fin 4)
    (hk : k.val < xs.length) (xk : S11008x1024x1.Idx → α) (hxk : xs[k.val] = ⟨S11008x1024x1, xk⟩)
    (hpre : (((xs.take k.val).map (·.1)).map fun s =>
      if h : s.rank = S11008x1024x4.rank then s.size ((2 : Fin S11008x1024x4.rank).cast h.symm) else 0).sum = k.val) :
    concatenate S11008x1024x4 2 xs h (ix3 n p k) = xk (ix3 n p (0 : Fin 1)) := by
  refine concatenate_apply_piece (2 : Fin S11008x1024x4.rank) xs h (ix3 n p k) k.val hk S11008x1024x1 xk hxk rfl k.val hpre
    (ix3 n p (0 : Fin 1)) (fun b hb => ?_) ?_
  · match b with
    | ⟨0, _⟩ => rfl
    | ⟨1, _⟩ => rfl
    | ⟨2, _⟩ => exact absurd rfl hb
  · exact Nat.add_zero k.val

/-- The planes side by side at (n, p, k): plane k, shifted by 2k. -/
theorem refPlanes_apply (w : IVec S11008x1024 32) (n : Fin 11008) (p : Fin 1024) (k : Fin 4) :
    refPlanes w (ix3 n p k) = ((w (ix2 n p)).sshiftRight' (BitVec.ofNat 32 (2 * k.val))) &&& 3#32 := by
  unfold refPlanes
  match k with
  | ⟨0, _⟩ => exact (concat_last_apply _ _ n p _ (by show (0 : Nat) < 4; decide) _ rfl rfl).trans (refPlane_apply w 0#32 (by decide) n p)
  | ⟨1, _⟩ => exact (concat_last_apply _ _ n p _ (by show (1 : Nat) < 4; decide) _ rfl rfl).trans (refPlane_apply w 2#32 (by decide) n p)
  | ⟨2, _⟩ => exact (concat_last_apply _ _ n p _ (by show (2 : Nat) < 4; decide) _ rfl rfl).trans (refPlane_apply w 4#32 (by decide) n p)
  | ⟨3, _⟩ => exact (concat_last_apply _ _ n p _ (by show (3 : Nat) < 4; decide) _ rfl rfl).trans (refPlane_apply w 6#32 (by decide) n p)

/-- Flattening (n, p, k) to column 4p + k: row-major positions agree. -/
theorem flat_pos (n : Fin 11008) (j : Fin 4096) (hp : j.val / 4 < 1024) (hk : j.val % 4 < 4) :
    (S11008x1024x4.rowMajor (ix3 n (⟨j.val / 4, hp⟩ : Fin 1024) (⟨j.val % 4, hk⟩ : Fin 4))).val
      = (S11008x4096.rowMajor (ix2 n j)).val := by
  rw [Shape.rowMajor_val_three, Shape.rowMajor_val_two]
  show (n.val * 1024 + j.val / 4) * 4 + j.val % 4 = n.val * 4096 + j.val
  omega

/-- The unpacked weight at (n, j) is column j of row n. -/
theorem refUnpack_apply (w : IVec S11008x1024 32) (n : Fin 11008) (j : Fin 4096) :
    refUnpack (F := Ideal) w (ix2 n j) = Cert.Spec.wcol w n j := by
  have hp : j.val / 4 < 1024 := by have := j.isLt; omega
  have hk : j.val % 4 < 4 := Nat.mod_lt _ (by decide)
  unfold refUnpack sitofp subi
  refine (congrArg (FloatOps.sitofp (F := Ideal) .f32) (congrArg₂ IntOp.subi
    ((shapeCast_apply (refPlanes w) _ (ix2 n j) (ix3 n (⟨j.val / 4, hp⟩ : Fin 1024) (⟨j.val % 4, hk⟩ : Fin 4))
      (flat_pos n j hp hk)).trans (refPlanes_apply w n _ _))
    (bcast_scalar_apply _ _ _))).trans ?_
  rfl

/-! ## The product and the result -/

/-- The product at (a, n) is the sum over the 4096 columns of quantized activation times unpacked weight. -/
theorem refDot_apply (x : FVec Ideal S8192x4096 .f32) (w : IVec S11008x1024 32) (a : Fin 8192) (n : Fin 11008) :
    refDot (F := Ideal) x w (ix2 a n) = Cert.Spec.acc x w a n := by
  refine (HandDot.refDot_sum x w a n).trans ?_
  unfold Cert.Spec.acc
  refine Finset.sum_congr rfl (fun j _ => ?_)
  exact congrArg₂ (fun u v : EReal => u * v) (HandQuant.refQuant_apply x a j) (refUnpack_apply w n j)

/-- The reference's result at (a, n) is the common value: the product over the row's scale, times the weight scale
    of column n; narrowing the format changes nothing over the extended reals. -/
theorem out_apply (x : FVec Ideal S8192x4096 .f32) (w : IVec S11008x1024 32) (ws : FVec Ideal S4 .f32)
    (a : Fin 8192) (n : Fin 11008) :
    Cert.ReferenceIdeal.Hand.out (F := Ideal) x w ws (ix2 a n) = Cert.Spec.out x w ws a n := by
  unfold Cert.ReferenceIdeal.Hand.out
  rw [truncf_apply, mulf_apply, hostDivf_apply]
  unfold Cert.Spec.out
  refine congrArg₂ (fun u v : EReal => u * v) ?_ ?_
  · refine congrArg₂ Ideal.div (refDot_apply x w a n) ?_
    exact (bcast_of_col_apply _ _ a n).trans (HandQuant.refScale_apply x a)
  · exact ((bcast_of_row_apply _ _ a n).trans (bcast_row1_apply _ _ n)).trans (HandIndex.refWs_apply ws n)

/-- The reference's result, as an array, is the common value as an array. -/
theorem out_eq (x : FVec Ideal S8192x4096 .f32) (w : IVec S11008x1024 32) (ws : FVec Ideal S4 .f32) :
    Cert.ReferenceIdeal.Hand.out (F := Ideal) x w ws = Cert.Spec.outArr x w ws := by
  funext i
  exact (congrArg (Cert.ReferenceIdeal.Hand.out (F := Ideal) x w ws) (eq_ix2 i)).trans
    (out_apply x w ws (i 0) (i 1))

end Cert.ReferenceIdeal.HandValue

end
-- ==== Proof.lean ====
/-
  The certificate of the quantized linear layer: a kernel that quantizes each activation row to integers in
  [-128, 127] by the row's scale 127 / max(|row|, ε), regroups the quantized columns into the four bit planes of the
  packed two-bit weights, multiplies plane by plane into an accumulator carried across the grid's last axis, and at the
  last plane divides by the row's scale and multiplies by the column's weight scale — against the reference that unpacks
  the weights to [11008, 4096], takes one product over all 4096 columns, and applies the same two scales.

  Over the extended reals both are the function `Cert.Spec.out`: the only law between the two arrangements is the
  re-indexing of a finite sum, column j = 4p + k read as plane k, word p (`Cert.Spec.acc_eq_planes`).

  The three frames: each kernel program is launched as four segments (two stretches of host lines, two kernel regions),
  the second region's invariant carrying its accumulator between grid points; the reference is a line of host operations.
  The idealized kernel's run also names what its result array ends holding, which the value modules read as
  `Cert.Spec.outArr` of the arguments; the reference's run ends at its operations' composed term, read index by index as
  the same function.
-/
import proofs.«408621_j59803124630310_3_alg».proof.Defs
import proofs.«408621_j59803124630310_3_alg».proof.Proof.Gen.Kernel
import proofs.«408621_j59803124630310_3_alg».proof.Proof.Gen.KernelIdeal
import proofs.«408621_j59803124630310_3_alg».proof.Proof.Gen.ReferenceIdeal
import proofs.«408621_j59803124630310_3_alg».proof.Proof.Gen.Pre_finite_inputs
import proofs.«408621_j59803124630310_3_alg».proof.Proof.K.Run
import proofs.«408621_j59803124630310_3_alg».proof.Proof.KI.Value
import proofs.«408621_j59803124630310_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : @Cert.frame_Kernel Cert.Kernel.Gen.facts Cert.Pre_finite_inputs.Gen.facts :=
  fun m ρ _ => Cert.Kernel.Hand.frame m ρ

/-- So does the idealized kernel. -/
theorem frame_ki : @Cert.frame_KernelIdeal Cert.KernelIdeal.Gen.facts Cert.Pre_finite_inputs.Gen.facts :=
  fun m ρ _ => Cert.KernelIdeal.Hand.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run (F := Ideal) m ρ)

/-- Both idealized programs end with the result array at `Cert.Spec.outArr` of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.HandValue.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2]
    exact Cert.ReferenceIdeal.HandValue.out_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
